-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x128x64 : Shape := ⟨4, ![4, 8, 128, 64]⟩
abbrev S64x320 : Shape := ⟨2, ![64, 320]⟩
abbrev S64 : Shape := ⟨1, ![64]⟩
abbrev S64x64 : Shape := ⟨2, ![64, 64]⟩
abbrev S_ : Shape := ⟨0, ![]⟩

class Facts : Prop where
  bcast_S_S4x8x128x64 : S_.BroadcastsInDim S4x8x128x64 (![] : Fin 0 → Fin S4x8x128x64.rank)
  reducesTo_S4x8x128x64_S_d0_1_2_3 : S4x8x128x64.ReducesTo [0, 1, 2, 3] S_
  h_S_ : 0 < S_.numel
  bcast_S_S64x320 : S_.BroadcastsInDim S64x320 (![] : Fin 0 → Fin S64x320.rank)
  reducesTo_S64x320_S_d0_1 : S64x320.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S4x8x128x64 .f32) (main_arg1 : FVec F S64x320 .f32) (main_arg2 : FVec F S64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S4x8x128x64 .f32 := Host.absf main_arg0
  let main_cst : FVec F S_ .f32 := constant S_ .f32 0x7F800000#32
  let main_v1 : FVec F S4x8x128x64 .f32 := broadcastInDim S4x8x128x64 ![] bcast_S_S4x8x128x64 main_cst
  let main_v2 : IVec S4x8x128x64 1 := cmpf .olt main_v0 main_v1
  let main_c : IVec S_ 1 := constantI S_ 1 1#1
  let main_v3 : IVec S_ 1 := (fun x v => Host.reduce IntOp.andi x v reducesTo_S4x8x128x64_S_d0_1_2_3 h_S_) main_v2 main_c
  let main_v4 : FVec F S64x320 .f32 := Host.absf main_arg1
  let main_cst_0 : FVec F S_ .f32 := constant S_ .f32 0x7F800000#32
  let main_v5 : FVec F S64x320 .f32 := broadcastInDim S64x320 ![] bcast_S_S64x320 main_cst_0
  let main_v6 : IVec S64x320 1 := cmpf .olt main_v4 main_v5
  let main_c_1 : IVec S_ 1 := constantI S_ 1 1#1
  let main_v7 : IVec S_ 1 := (fun x v => Host.reduce IntOp.andi x v reducesTo_S64x320_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S4x8x128x64 : Shape := ⟨4, ![4, 8, 128, 64]⟩
abbrev S64x320 : Shape := ⟨2, ![64, 320]⟩
abbrev S64 : Shape := ⟨1, ![64]⟩
abbrev S64x64 : Shape := ⟨2, ![64, 64]⟩
abbrev S4x8x128x128x64 : Shape := ⟨5, ![4, 8, 128, 128, 64]⟩
abbrev S1x1x128x64 : Shape := ⟨4, ![1, 1, 128, 64]⟩
abbrev S1x1x128x128x64 : Shape := ⟨5, ![1, 1, 128, 128, 64]⟩
abbrev S128x64 : Shape := ⟨2, ![128, 64]⟩
abbrev S1x64 : Shape := ⟨2, ![1, 64]⟩
abbrev S128x128 : Shape := ⟨2, ![128, 128]⟩
abbrev S128x128x1 : Shape := ⟨3, ![128, 128, 1]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩
abbrev S16384x64 : Shape := ⟨2, ![16384, 64]⟩

abbrev nBuf : Space → Nat
  | .hbm => 9
  | .vmem => 11
  | .smem => 0
  | _ => 0

abbrev bufTy : (tb : Table) → Fin (tcTables nBuf tb) → BufTy
  | .hbm, ⟨0, _⟩ => ⟨S4x8x128x64, .f32⟩
  | .hbm, ⟨1, _⟩ => ⟨S64x320, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S4x8x128x128x64, .f32⟩
  | .local _ .vmem, ⟨0, _⟩ => ⟨S1x1x128x64, .f32⟩
  | .local _ .vmem, ⟨1, _⟩ => ⟨S1x1x128x64, .f32⟩
  | .local _ .vmem, ⟨2, _⟩ => ⟨S64x320, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S1x1x128x128x64, .f32⟩
  | .local _ .vmem, ⟨10, _⟩ => ⟨S1x1x128x128x64, .f32⟩
  | _, _ => ⟨S4x8x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x128x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x1x128x64_S1x1x128x64_0_0_0_0 : ∀ a, (![0, 0, 0, 0] : Fin 4 → Nat) a + S1x1x128x64.size a ≤ S1x1x128x64.size a
  h_S1x1x128x64 : 0 < S1x1x128x64.numel
  shapeCasts_S1x1x128x64_S128x64 : S1x1x128x64.ShapeCasts S128x64
  inb_S64x320_S64x320_0_0 : ∀ a, (![0, 0] : Fin 2 → Nat) a + S64x320.size a ≤ S64x320.size a
  h_S64x320 : 0 < S64x320.numel
  slices_S64x320_o0_0_S64x64 : S64x320.Slices ![0, 0] S64x64
  slices_S64x320_o0_64_S64x64 : S64x320.Slices ![0, 64] S64x64
  slices_S64x320_o0_128_S64x64 : S64x320.Slices ![0, 128] S64x64
  slices_S64x320_o0_192_S64x64 : S64x320.Slices ![0, 192] S64x64
  slices_S64x320_o0_256_S64x64 : S64x320.Slices ![0, 256] S64x64
  inb_S64_S64_0 : ∀ a, (![0] : Fin 1 → Nat) a + S64.size a ≤ S64.size a
  h_S64 : 0 < S64.numel
  reduces_S128x64_S64 : S128x64.Reduces [0] S64
  shapeCasts_S64_S1x64 : S64.ShapeCasts S1x64
  transposes_S64x64_p1_0_S64x64 : S64x64.Transposes [1, 0] S64x64
  broadcasts_S1x64_S128x64 : S1x64.Broadcasts S128x64
  iota_S128x128_d0_w32 : S128x128.Iotas .tc 32 [0]
  iota_S128x128_d1_w32 : S128x128.Iotas .tc 32 [1]
  natLt_1_32 : 1 < 32
  shapeCasts_S128x128_S128x128x1 : S128x128.ShapeCasts S128x128x1
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S1x64_S1x1x64 : S1x64.ShapeCasts S1x1x64
  broadcasts_S1x1x64_S128x128x64 : S1x1x64.Broadcasts S128x128x64
  broadcasts_S128x128x1_S128x128x64 : S128x128x1.Broadcasts S128x128x64
  reduces_S128x128x64_S128x128 : S128x128x64.Reduces [2] S128x128
  shapeCasts_S64_S1x1x64 : S64.ShapeCasts S1x1x64
  inb_S64x64_S64x64_0_0 : ∀ a, (![0, 0] : Fin 2 → Nat) a + S64x64.size a ≤ S64x64.size a
  h_S64x64 : 0 < S64x64.numel
  shapeCasts_S128x128x64_S16384x64 : S128x128x64.ShapeCasts S16384x64
  broadcasts_S1x64_S16384x64 : S1x64.Broadcasts S16384x64
  shapeCasts_S16384x64_S128x128x64 : S16384x64.ShapeCasts S128x128x64
  inb_S1x1x128x128x64_S1x1x128x128x64_0_0_0_0_0 : ∀ a, (![0, 0, 0, 0, 0] : Fin 5 → Nat) a + S1x1x128x128x64.size a ≤ S1x1x128x128x64.size a
  h_S1x1x128x128x64 : 0 < S1x1x128x128x64.numel
  shapeCasts_S1x1x128x128x64_S128x128x64 : S1x1x128x128x64.ShapeCasts S128x128x64
  shapeCasts_S128x128x64_S1x1x128x128x64 : S128x128x64.ShapeCasts S1x1x128x128x64
  dot_S128x64_S64x64_S128x64_1_0_0_1_n_n_wf : DotDims.WF S128x64 S64x64 S128x64 [1] [0] [0] [1] [] []
  dot_S1x64_S64x64_S1x64_1_0_0_1_n_n_wf : DotDims.WF S1x64 S64x64 S1x64 [1] [0] [0] [1] [] []
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x64.size a ≤ S4x8x128x64.size a
  hwx0_0 : ∀ i : grid0.Coords, EltTy.bits .f32 = 32 ∨ (Rect.block (s := S4x8x128x64) S1x1x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x320.size a ≤ S64x320.size a
  hwx0_1 : ∀ i : grid0.Coords, EltTy.bits .f32 = 32 ∨ (Rect.block (s := S64x320) S64x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128x128x64.size a ≤ S4x8x128x128x64.size a
  hwx0_8 : ∀ i : grid0.Coords, EltTy.bits .f32 = 32 ∨ (Rect.block (s := S4x8x128x128x64) S1x1x128x128x64.size (cc0_transform_8 i) (hinb0_8 i)).WholeWords (EltTy.packing .f32)

variable [Facts₀]

def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S1x1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x128x128x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x8x128x64 : Shape := ⟨4, ![4, 8, 128, 64]⟩
abbrev S64x320 : Shape := ⟨2, ![64, 320]⟩
abbrev S64 : Shape := ⟨1, ![64]⟩
abbrev S64x64 : Shape := ⟨2, ![64, 64]⟩
abbrev S128x128 : Shape := ⟨2, ![128, 128]⟩
abbrev S_ : Shape := ⟨0, ![]⟩
abbrev S128x128x1 : Shape := ⟨3, ![128, 128, 1]⟩
abbrev S4x8x64 : Shape := ⟨3, ![4, 8, 64]⟩
abbrev S4x8x1x64 : Shape := ⟨4, ![4, 8, 1, 64]⟩
abbrev S4x8x128x1x64 : Shape := ⟨5, ![4, 8, 128, 1, 64]⟩
abbrev S1x1x128x128x1 : Shape := ⟨5, ![1, 1, 128, 128, 1]⟩
abbrev S4x8x128x128x64 : Shape := ⟨5, ![4, 8, 128, 128, 64]⟩
abbrev S4x8x1x128x64 : Shape := ⟨5, ![4, 8, 1, 128, 64]⟩
abbrev S4x8x1x1x64 : Shape := ⟨5, ![4, 8, 1, 1, 64]⟩
abbrev S4x8x128x128x320 : Shape := ⟨5, ![4, 8, 128, 128, 320]⟩
abbrev S1x1x1x1x64 : Shape := ⟨5, ![1, 1, 1, 1, 64]⟩
abbrev S4x8x128x128 : Shape := ⟨4, ![4, 8, 128, 128]⟩
abbrev S4x8x128x128x1 : Shape := ⟨5, ![4, 8, 128, 128, 1]⟩
abbrev S1x1x64 : Shape := ⟨3, ![1, 1, 64]⟩
abbrev S128x128x64 : Shape := ⟨3, ![128, 128, 64]⟩
abbrev S1x1x128x128x64 : Shape := ⟨5, ![1, 1, 128, 128, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x8x128x64, .f32⟩
  | .hbm, ⟨1, _⟩ => ⟨S64x320, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x128, .f32⟩
  | .hbm, ⟨15, _⟩ => ⟨S128x128x1, .f32⟩
  | .hbm, ⟨16, _⟩ => ⟨S_, .f32⟩
  | .hbm, ⟨17, _⟩ => ⟨S4x8x64, .f32⟩
  | .hbm, ⟨18, _⟩ => ⟨S4x8x1x64, .f32⟩
  | .hbm, ⟨19, _⟩ => ⟨S_, .f32⟩
  | .hbm, ⟨20, _⟩ => ⟨S4x8x1x64, .f32⟩
  | .hbm, ⟨21, _⟩ => ⟨S4x8x1x64, .f32⟩
  | .hbm, ⟨22, _⟩ => ⟨S4x8x128x1x64, .f32⟩
  | .hbm, ⟨23, _⟩ => ⟨S1x1x128x128x1, .f32⟩
  | .hbm, ⟨24, _⟩ => ⟨S4x8x128x128x64, .f32⟩
  | .hbm, ⟨25, _⟩ => ⟨S4x8x128x128x64, .f32⟩
  | .hbm, ⟨26, _⟩ => ⟨S4x8x128x128x64, .f32⟩
  | .hbm, ⟨27, _⟩ => ⟨S4x8x128x1x64, .f32⟩
  | .hbm, ⟨28, _⟩ => ⟨S4x8x128x128x64, .f32⟩
  | .hbm, ⟨29, _⟩ => ⟨S4x8x1x128x64, .f32⟩
  | .hbm, ⟨30, _⟩ => ⟨S4x8x128x128x64, .f32⟩
  | .hbm, ⟨31, _⟩ => ⟨S4x8x1x1x64, .f32⟩
  | .hbm, ⟨32, _⟩ => ⟨S1x1x128x128x1, .f32⟩
  | .hbm, ⟨33, _⟩ => ⟨S4x8x128x128x64, .f32⟩
  | .hbm, ⟨34, _⟩ => ⟨S4x8x128x128x64, .f32⟩
  | .hbm, ⟨35, _⟩ => ⟨S4x8x128x128x64, .f32⟩
  | .hbm, ⟨36, _⟩ => ⟨S4x8x1x1x64, .f32⟩
  | .hbm, ⟨37, _⟩ => ⟨S4x8x128x128x64, .f32⟩
  | .hbm, ⟨38, _⟩ => ⟨S4x8x128x128x320, .f32⟩
  | .hbm, ⟨39, _⟩ => ⟨S4x8x128x128x64, .f32⟩
  | .hbm, ⟨40, _⟩ => ⟨S1x1x1x1x64, .f32⟩
  | .hbm, ⟨41, _⟩ => ⟨S4x8x128x128x64, .f32⟩
  | .hbm, ⟨42, _⟩ => ⟨S4x8x128x128x64, .f32⟩
  | .hbm, ⟨43, _⟩ => ⟨S_, .f32⟩
  | .hbm, ⟨44, _⟩ => ⟨S4x8x128x128, .f32⟩
  | .hbm, ⟨45, _⟩ => ⟨S4x8x128x128x1, .f32⟩
  | .hbm, ⟨46, _⟩ => ⟨S_, .f32⟩
  | .hbm, ⟨47, _⟩ => ⟨S4x8x128x128x1, .f32⟩
  | .hbm, ⟨48, _⟩ => ⟨S4x8x128x128x1, .f32⟩
  | .hbm, ⟨49, _⟩ => ⟨S4x8x128x128x64, .f32⟩
  | .hbm, ⟨50, _⟩ => ⟨S4x8x128x128x64, .f32⟩
  | .hbm, ⟨51, _⟩ => ⟨S4x8x128x128x64, .f32⟩
  | .hbm, ⟨52, _⟩ => ⟨S_, .f32⟩
  | .hbm, ⟨53, _⟩ => ⟨S4x8x128x128, .f32⟩
  | .hbm, ⟨54, _⟩ => ⟨S4x8x128x128x1, .f32⟩
  | .hbm, ⟨55, _⟩ => ⟨S_, .f32⟩
  | .hbm, ⟨56, _⟩ => ⟨S4x8x128x128x1, .f32⟩
  | .hbm, ⟨57, _⟩ => ⟨S4x8x128x128x1, .f32⟩
  | .hbm, ⟨58, _⟩ => ⟨S4x8x128x128x64, .f32⟩
  | .hbm, ⟨59, _⟩ => ⟨S4x8x128x128x64, .f32⟩
  | .hbm, ⟨60, _⟩ => ⟨S_, .f32⟩
  | .hbm, ⟨61, _⟩ => ⟨S4x8x128x128x1, .f32⟩
  | .hbm, ⟨62, _⟩ => ⟨S4x8x128x128x1, .f32⟩
  | .hbm, ⟨63, _⟩ => ⟨S4x8x128x128x1, .f32⟩
  | .hbm, ⟨64, _⟩ => ⟨S4x8x128x128x64, .f32⟩
  | .hbm, ⟨65, _⟩ => ⟨S4x8x128x128x64, .f32⟩
  | .hbm, ⟨66, _⟩ => ⟨S1x1x1x1x64, .f32⟩
  | .hbm, ⟨67, _⟩ => ⟨S4x8x128x128x64, .f32⟩
  | .hbm, ⟨68, _⟩ => ⟨S4x8x128x128x64, .f32⟩
  | .hbm, ⟨69, _⟩ => ⟨S1x1x1x1x64, .f32⟩
  | .hbm, ⟨70, _⟩ => ⟨S4x8x128x128x64, .f32⟩
  | .hbm, ⟨71, _⟩ => ⟨S4x8x128x128x64, .f32⟩
  | .hbm, ⟨72, _⟩ => ⟨S_, .f32⟩
  | .hbm, ⟨73, _⟩ => ⟨S4x8x128x128x64, .f32⟩
  | .hbm, ⟨74, _⟩ => ⟨S4x8x128x128x64, .f32⟩
  | .hbm, ⟨75, _⟩ => ⟨S1x1x64, .f32⟩
  | .hbm, ⟨76, _⟩ => ⟨S128x128x64, .f32⟩
  | .hbm, ⟨77, _⟩ => ⟨S128x128x64, .f32⟩
  | .hbm, ⟨78, _⟩ => ⟨S128x128x64, .f32⟩
  | .hbm, ⟨79, _⟩ => ⟨S1x1x128x128x64, .f32⟩
  | .hbm, ⟨80, _⟩ => ⟨S4x8x128x128x64, .f32⟩
  | .hbm, ⟨81, _⟩ => ⟨S4x8x128x128x64, .f32⟩
  | .hbm, ⟨82, _⟩ => ⟨S4x8x128x128x64, .f32⟩
  | .hbm, ⟨83, _⟩ => ⟨S1x1x1x1x64, .f32⟩
  | .hbm, ⟨84, _⟩ => ⟨S4x8x128x128x64, .f32⟩
  | .hbm, ⟨85, _⟩ => ⟨S4x8x128x128x64, .f32⟩
  | _, _ => ⟨S4x8x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call0_cst : Ref sig .tc := ⟨.hbm, 72, rfl⟩
abbrev main_call0_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  reducesTo_S4x8x128x64_S4x8x64_d2 : S4x8x128x64.ReducesTo [2] S4x8x64
  h_S_ : 0 < S_.numel
  bcast_S4x8x64_S4x8x1x64_0_1_3 : S4x8x64.BroadcastsInDim S4x8x1x64 (![0, 1, 3] : Fin 3 → Fin S4x8x1x64.rank)
  bcast_S_S4x8x1x64 : S_.BroadcastsInDim S4x8x1x64 (![] : Fin 0 → Fin S4x8x1x64.rank)
  bcast_S4x8x128x64_S4x8x128x1x64_0_1_2_4 : S4x8x128x64.BroadcastsInDim S4x8x128x1x64 (![0, 1, 2, 4] : Fin 4 → Fin S4x8x128x1x64.rank)
  bcast_S128x128x1_S1x1x128x128x1_2_3_4 : S128x128x1.BroadcastsInDim S1x1x128x128x1 (![2, 3, 4] : Fin 3 → Fin S1x1x128x128x1.rank)
  bcast_S4x8x128x1x64_S4x8x128x128x64_0_1_2_3_4 : S4x8x128x1x64.BroadcastsInDim S4x8x128x128x64 (![0, 1, 2, 3, 4] : Fin 5 → Fin S4x8x128x128x64.rank)
  bcast_S1x1x128x128x1_S4x8x128x128x64_0_1_2_3_4 : S1x1x128x128x1.BroadcastsInDim S4x8x128x128x64 (![0, 1, 2, 3, 4] : Fin 5 → Fin S4x8x128x128x64.rank)
  bcast_S4x8x128x64_S4x8x1x128x64_0_1_3_4 : S4x8x128x64.BroadcastsInDim S4x8x1x128x64 (![0, 1, 3, 4] : Fin 4 → Fin S4x8x1x128x64.rank)
  bcast_S4x8x1x128x64_S4x8x128x128x64_0_1_2_3_4 : S4x8x1x128x64.BroadcastsInDim S4x8x128x128x64 (![0, 1, 2, 3, 4] : Fin 5 → Fin S4x8x128x128x64.rank)
  bcast_S4x8x1x64_S4x8x1x1x64_0_1_2_4 : S4x8x1x64.BroadcastsInDim S4x8x1x1x64 (![0, 1, 2, 4] : Fin 4 → Fin S4x8x1x1x64.rank)
  bcast_S4x8x1x1x64_S4x8x128x128x64_0_1_2_3_4 : S4x8x1x1x64.BroadcastsInDim S4x8x128x128x64 (![0, 1, 2, 3, 4] : Fin 5 → Fin S4x8x128x128x64.rank)
  concatenates_S4x8x128x128x64_S4x8x128x128x64_S4x8x128x128x64_S4x8x128x128x64_S4x8x128x128x64_S4x8x128x128x320_d4 : Shape.Concatenates [S4x8x128x128x64, S4x8x128x128x64, S4x8x128x128x64, S4x8x128x128x64, S4x8x128x128x64] S4x8x128x128x320 4
  bcast_S64_S1x1x1x1x64_4 : S64.BroadcastsInDim S1x1x1x1x64 (![4] : Fin 1 → Fin S1x1x1x1x64.rank)
  bcast_S1x1x1x1x64_S4x8x128x128x64_0_1_2_3_4 : S1x1x1x1x64.BroadcastsInDim S4x8x128x128x64 (![0, 1, 2, 3, 4] : Fin 5 → Fin S4x8x128x128x64.rank)
  reducesTo_S4x8x128x128x64_S4x8x128x128_d4 : S4x8x128x128x64.ReducesTo [4] S4x8x128x128
  bcast_S4x8x128x128_S4x8x128x128x1_0_1_2_3 : S4x8x128x128.BroadcastsInDim S4x8x128x128x1 (![0, 1, 2, 3] : Fin 4 → Fin S4x8x128x128x1.rank)
  bcast_S_S4x8x128x128x1 : S_.BroadcastsInDim S4x8x128x128x1 (![] : Fin 0 → Fin S4x8x128x128x1.rank)
  bcast_S4x8x128x128x1_S4x8x128x128x64_0_1_2_3_4 : S4x8x128x128x1.BroadcastsInDim S4x8x128x128x64 (![0, 1, 2, 3, 4] : Fin 5 → Fin S4x8x128x128x64.rank)
  bcast_S_S4x8x128x128x64 : S_.BroadcastsInDim S4x8x128x128x64 (![] : Fin 0 → Fin S4x8x128x128x64.rank)
  bcast_S64_S1x1x64_2 : S64.BroadcastsInDim S1x1x64 (![2] : Fin 1 → Fin S1x1x64.rank)
  bcast_S1x1x64_S128x128x64_0_1_2 : S1x1x64.BroadcastsInDim S128x128x64 (![0, 1, 2] : Fin 3 → Fin S128x128x64.rank)
  bcast_S128x128x1_S128x128x64_0_1_2 : S128x128x1.BroadcastsInDim S128x128x64 (![0, 1, 2] : Fin 3 → Fin S128x128x64.rank)
  bcast_S128x128x64_S1x1x128x128x64_2_3_4 : S128x128x64.BroadcastsInDim S1x1x128x128x64 (![2, 3, 4] : Fin 3 → Fin S1x1x128x128x64.rank)
  bcast_S1x1x128x128x64_S4x8x128x128x64_0_1_2_3_4 : S1x1x128x128x64.BroadcastsInDim S4x8x128x128x64 (![0, 1, 2, 3, 4] : Fin 5 → Fin S4x8x128x128x64.rank)
  dot_S4x8x128x128x320_S64x320_S4x8x128x128x64_4_1_0123_0_n_n_wf : DotDims.WF S4x8x128x128x320 S64x320 S4x8x128x128x64 [4] [1] [0, 1, 2, 3] [0] [] []
  dot_S4x8x128x128x64_S64x64_S4x8x128x128x64_4_1_0123_0_n_n_wf : DotDims.WF S4x8x128x128x64 S64x64 S4x8x128x128x64 [4] [1] [0, 1, 2, 3] [0] [] []

variable [Facts₀]

def dot_S4x8x128x128x320_S64x320_S4x8x128x128x64_4_1_0123_0_n_n : DotDims S4x8x128x128x320 S64x320 S4x8x128x128x64 where
  lhsContracting := [4]
  rhsContracting := [1]
  lhsNonContracting := [0, 1, 2, 3]
  rhsNonContracting := [0]
  lhsBatch := []
  rhsBatch := []
  wf := dot_S4x8x128x128x320_S64x320_S4x8x128x128x64_4_1_0123_0_n_n_wf
def dot_S4x8x128x128x64_S64x64_S4x8x128x128x64_4_1_0123_0_n_n : DotDims S4x8x128x128x64 S64x64 S4x8x128x128x64 where
  lhsContracting := [4]
  rhsContracting := [1]
  lhsNonContracting := [0, 1, 2, 3]
  rhsNonContracting := [0]
  lhsBatch := []
  rhsBatch := []
  wf := dot_S4x8x128x128x64_S64x64_S4x8x128x128x64_4_1_0123_0_n_n_wf

class Facts : Prop extends Facts₀ where

variable [Facts]
-- ==== Proof.PairSpec.lean ====
/-
  The mathematics both programs compute, stated once over plain index types.

  For one (b, u) slab X : 128 x 64 of the input, the layer builds for every ordered pair (i, j) of rows a
  320-wide feature vector — five 64-wide pieces: X i on the diagonal only, X i, X j, the column mean of X on the
  diagonal only, the column mean — and applies an affine map W1 (64 x 320), b1.  The kernel never builds the
  320-wide vector: it contracts each 64-wide piece with its own column block of W1 and adds the five results,
  the two diagonal-only pieces gathered under one factor (`preSplit`).  The reference contracts the concatenated
  vector (`preConcat`).  What follows the affine map is the same on both sides (`tail`): layer normalisation over
  the 64 features (mean and variance as sums divided by 64, the reciprocal square root of variance + eps), scale
  and shift, a clamp at zero from below, a learned bias added on the diagonal only, and a second affine map W2, b2.
-/
import Idealize.ShloMosaic.PureOps.Ideal
import Idealize.ShloMosaic.Lib.ValueIdx

noncomputable section

namespace Cert.Pair

open Idealize.ShloMosaic Idealize.ShloMosaic.ValueIdx

/-- One on the diagonal of the 128 x 128 pair grid, zero off it. -/
def diag (i j : Fin 128) : EReal := if i = j then 1 else 0

/-- Column f of the slab averaged over its 128 rows: the sum divided by the float 128.0. -/
def colMean (X : Fin 128 → Fin 64 → EReal) (f : Fin 64) : EReal :=
  Ideal.div (∑ i : Fin 128, X i f) (Ideal.ofBits .f32 0x43000000#32)

/-- Column f of the s-th 64-wide block of a 320-wide row. -/
def col (s : Fin 5) (f : Fin 64) : Fin 320 := ⟨64 * s.val + f.val, by have := s.isLt; have := f.isLt; omega⟩

/-- A 64-vector contracted with block s of row d of W1. -/
def proj (W : Fin 64 → Fin 320 → EReal) (s : Fin 5) (v : Fin 64 → EReal) (d : Fin 64) : EReal :=
  ∑ f : Fin 64, v f * W d (col s f)

/-- The first affine map as the kernel computes it: the row piece, the column piece and the constant piece added,
    plus the diagonal indicator times the sum of the two diagonal-only pieces. -/
def preSplit (X : Fin 128 → Fin 64 → EReal) (W : Fin 64 → Fin 320 → EReal) (b1 : Fin 64 → EReal)
    (i j : Fin 128) (d : Fin 64) : EReal :=
  ((proj W 1 (X i) d + proj W 2 (X j) d) + (proj W 4 (colMean X) d + b1 d))
    + diag i j * (proj W 0 (X i) d + proj W 3 (colMean X) d)

/-- Piece s of the 320-wide feature vector of the pair (i, j). -/
def feat (X : Fin 128 → Fin 64 → EReal) (i j : Fin 128) (s : Fin 5) (f : Fin 64) : EReal :=
  match s with
  | ⟨0, _⟩ => X i f * diag i j
  | ⟨1, _⟩ => X i f
  | ⟨2, _⟩ => X j f
  | ⟨3, _⟩ => colMean X f * diag i j
  | ⟨4, _⟩ => colMean X f

/-- The first affine map as the reference computes it: the concatenated feature vector contracted with row d of
    W1 (the 320 columns enumerated block by block), plus b1. -/
def preConcat (X : Fin 128 → Fin 64 → EReal) (W : Fin 64 → Fin 320 → EReal) (b1 : Fin 64 → EReal)
    (i j : Fin 128) (d : Fin 64) : EReal :=
  (∑ s : Fin 5, ∑ f : Fin 64, feat X i j s f * W d (col s f)) + b1 d

/-- The mean of 64 numbers: their sum divided by the float 64.0. -/
def mean64 (v : Fin 64 → EReal) : EReal :=
  Ideal.div (∑ d : Fin 64, v d) (Ideal.ofBits .f32 0x42800000#32)

/-- Feature d of a 64-vector after layer normalisation: centred, times the reciprocal square root of the variance
    plus the float nearest 1e-5. -/
def normed (h : Fin 64 → EReal) (d : Fin 64) : EReal :=
  (h d - mean64 h)
    * Ideal.rsqrt (mean64 (fun d' => (h d' - mean64 h) * (h d' - mean64 h)) + Ideal.ofBits .f32 0x3727C5AC#32)

/-- Feature d after scale g, shift β, the clamp at zero, and the bias added e-fold (e is the diagonal indicator). -/
def act (h : Fin 64 → EReal) (e : EReal) (g β bias : Fin 64 → EReal) (d : Fin 64) : EReal :=
  max (normed h d * g d + β d) 0 + bias d * e

/-- Output feature o of a pair: the activated vector contracted with row o of W2, plus b2. -/
def tail (h : Fin 64 → EReal) (e : EReal) (g β bias : Fin 64 → EReal) (W2 : Fin 64 → Fin 64 → EReal)
    (b2 : Fin 64 → EReal) (o : Fin 64) : EReal :=
  (∑ d : Fin 64, act h e g β bias d * W2 o d) + b2 o

/-! ## The arrays as plain functions of their coordinates -/

/-- The (b, u) slab of the input. -/
def slab (x : FVec Ideal ⟨4, ![4, 8, 128, 64]⟩ .f32) (b : Fin 4) (u : Fin 8) : Fin 128 → Fin 64 → EReal :=
  fun i f => x (ix4 b u i f)

def mat320 (w : FVec Ideal ⟨2, ![64, 320]⟩ .f32) : Fin 64 → Fin 320 → EReal := fun d k => w (ix2 d k)

def mat64 (w : FVec Ideal ⟨2, ![64, 64]⟩ .f32) : Fin 64 → Fin 64 → EReal := fun o d => w (ix2 o d)

def vec64 (v : FVec Ideal ⟨1, ![64]⟩ .f32) : Fin 64 → EReal := fun d => v (ix1 d)

/-- The whole result array, given how the first affine map is computed (`P`: `preSplit` or `preConcat`):
    at (b, u, i, j, o) the tail of the 64 pre-activations of the pair (i, j) of slab (b, u). -/
def outWith (P : (Fin 128 → Fin 64 → EReal) → (Fin 64 → Fin 320 → EReal) → (Fin 64 → EReal) → Fin 128 → Fin 128 → Fin 64 → EReal)
    (x : FVec Ideal ⟨4, ![4, 8, 128, 64]⟩ .f32) (W1 : FVec Ideal ⟨2, ![64, 320]⟩ .f32)
    (b1 g β bias : FVec Ideal ⟨1, ![64]⟩ .f32) (W2 : FVec Ideal ⟨2, ![64, 64]⟩ .f32) (b2 : FVec Ideal ⟨1, ![64]⟩ .f32)
    (b : Fin 4) (u : Fin 8) (i j : Fin 128) (o : Fin 64) : EReal :=
  tail (fun d => P (slab x b u) (mat320 W1) (vec64 b1) i j d) (diag i j) (vec64 g) (vec64 β) (vec64 bias) (mat64 W2) (vec64 b2) o

/-- The result array over its five coordinates. -/
def outArr (P : (Fin 128 → Fin 64 → EReal) → (Fin 64 → Fin 320 → EReal) → (Fin 64 → EReal) → Fin 128 → Fin 128 → Fin 64 → EReal)
    (x : FVec Ideal ⟨4, ![4, 8, 128, 64]⟩ .f32) (W1 : FVec Ideal ⟨2, ![64, 320]⟩ .f32)
    (b1 g β bias : FVec Ideal ⟨1, ![64]⟩ .f32) (W2 : FVec Ideal ⟨2, ![64, 64]⟩ .f32) (b2 : FVec Ideal ⟨1, ![64]⟩ .f32) :
    FVec Ideal ⟨5, ![4, 8, 128, 128, 64]⟩ .f32 :=
  fun y => outWith P x W1 b1 g β bias W2 b2 ⟨(y 0).val, (y 0).isLt⟩ ⟨(y 1).val, (y 1).isLt⟩ ⟨(y 2).val, (y 2).isLt⟩
    ⟨(y 3).val, (y 3).isLt⟩ ⟨(y 4).val, (y 4).isLt⟩

theorem outArr_ix5 (P : (Fin 128 → Fin 64 → EReal) → (Fin 64 → Fin 320 → EReal) → (Fin 64 → EReal) → Fin 128 → Fin 128 → Fin 64 → EReal)
    (x : FVec Ideal ⟨4, ![4, 8, 128, 64]⟩ .f32) (W1 : FVec Ideal ⟨2, ![64, 320]⟩ .f32)
    (b1 g β bias : FVec Ideal ⟨1, ![64]⟩ .f32) (W2 : FVec Ideal ⟨2, ![64, 64]⟩ .f32) (b2 : FVec Ideal ⟨1, ![64]⟩ .f32)
    (b : Fin 4) (u : Fin 8) (i j : Fin 128) (o : Fin 64) :
    outArr P x W1 b1 g β bias W2 b2 (ix5 b u i j o) = outWith P x W1 b1 g β bias W2 b2 b u i j o := rfl

end Cert.Pair

end
-- ==== Proof.KerPre.lean ====
/- The kernel's first affine map, read at a pair (i, j) and a feature d. -/
import proofs.«167405_j63041529970916_1_alg».proof.Proof.Gen.KernelIdeal.Skeleton
import proofs.«167405_j63041529970916_1_alg».proof.Proof.PairSpec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Pair.Ker

open Idealize.ShloMosaic Idealize.ShloMosaic.ValueIdx Cert.KernelIdeal Cert.KernelIdeal.Gen Cert.Pair

/-- The staged 1 x 1 x 128 x 64 block of the input as a 128 x 64 slab. -/
def blkX (v0 : Vec Ideal S1x1x128x64 .f32) : Fin 128 → Fin 64 → EReal := fun i f => v0 (ix4 0 0 i f)

/-! ## The diagonal indicator -/

/-- The word "row number equals column number", widened to 32 bits and read as a signed integer, is the
    diagonal indicator. -/
private theorem diag_word (i j : Fin 128) :
    ((((IntOp.cmpi .eq (BitVec.ofNat 32 i.val) (BitVec.ofNat 32 j.val)).setWidth 32).toInt : ℝ) : EReal) = diag i j := by
  unfold diag
  by_cases h : i = j
  · subst h
    rw [if_pos rfl, StableHlo.Predicate.cmpi_eq_iff.mpr rfl]
    have h1 : ((1#1 : BitVec 1).setWidth 32).toInt = 1 := by decide
    rw [h1]; simp
  · have hne : ¬ IntOp.cmpi .eq (BitVec.ofNat 32 i.val) (BitVec.ofNat 32 j.val) = 1#1 := fun hc => h (Fin.ext (by
      have h2 := congrArg BitVec.toNat (StableHlo.Predicate.cmpi_eq_iff.mp hc)
      simp only [BitVec.toNat_ofNat] at h2
      have := i.isLt; have := j.isLt; omega))
    rw [if_neg h, eq_zero_of_ne_one hne]
    have h0 : ((0#1 : BitVec 1).setWidth 32).toInt = 0 := by decide
    rw [h0]; simp

theorem pay4_apply (i j : Fin 128) : (k0_pay4 (F := Ideal)) (ix3 i j 0) = diag i j := by
  unfold k0_pay4
  refine (shapeCast_apply _ _ (ix3 i j 0) (ix2 i j) ?_).trans ?_
  · rw [Shape.rowMajor_val_two, Shape.rowMajor_val_three]
    show i.val * 128 + j.val = (i.val * 128 + j.val) * 1 + 0
    omega
  · refine Eq.trans ?_ (diag_word i j)
    exact congrArg₂ (fun a b : BitVec 32 => ((((IntOp.cmpi .eq a b).setWidth 32).toInt : ℝ) : EReal))
      (iota_single_apply .tc S128x128 32 0 _ (ix2 i j)) (iota_single_apply .tc S128x128 32 1 _ (ix2 i j))

theorem pay6_apply (i j : Fin 128) (d : Fin 64) : (k0_pay6 (F := Ideal)) (ix3 i j d) = diag i j := by
  unfold k0_pay6
  refine (broadcastTo_apply _ _ (ix3 i j d) (ix3 i j 0) ?_).trans (pay4_apply i j)
  intro a
  match a with
  | ⟨0, _⟩ => show i.val = if (128 : Nat) = 1 then 0 else i.val; rw [if_neg (by decide)]
  | ⟨1, _⟩ => show j.val = if (128 : Nat) = 1 then 0 else j.val; rw [if_neg (by decide)]
  | ⟨2, _⟩ => show 0 = if (1 : Nat) = 1 then 0 else d.val; rw [if_pos rfl]

/-! ## The staged block and its column mean -/

private theorem pay2_apply (v0 : Vec Ideal S1x1x128x64 .f32) (i : Fin 128) (f : Fin 64) :
    k0_pay2 (F := Ideal) v0 (ix2 i f) = v0 (ix4 0 0 i f) := by
  unfold k0_pay2
  refine shapeCast_apply v0 _ (ix2 i f) (ix4 0 0 i f) ?_
  rw [Shape.rowMajor_val_four, Shape.rowMajor_val_two]
  show ((0 * 1 + 0) * 128 + i.val) * 64 + f.val = i.val * 64 + f.val
  omega

private theorem pay3_apply (v0 : Vec Ideal S1x1x128x64 .f32) (f : Fin 64) :
    k0_pay3 (F := Ideal) v0 (ix2 0 f) = colMean (blkX v0) f := by
  unfold k0_pay3 colMean
  refine (divf_apply _ _ _).trans ?_
  refine congrArg₂ Ideal.div ?_ rfl
  refine (shapeCast_a_1a_apply _ _ 0 f).trans ?_
  refine (Ideal.multiReduction_add_single (k0_pay2 (F := Ideal) v0) 0x00000000#32 _ _ _ (ix1 f)).trans ?_
  refine Finset.sum_congr rfl fun k _ => ?_
  refine Eq.trans (congrArg (k0_pay2 (F := Ideal) v0) ?_) (pay2_apply v0 k f)
  exact funext fun a => Fin.ext (by
    match a with
    | ⟨0, _⟩ => rfl
    | ⟨1, _⟩ => rfl)

/-! ## A 64-deep contraction read at an index -/

private theorem lhs128_0 (i : S128x64.Idx) (q : dot_S128x64_S64x64_S128x64_1_0_0_1_n_n.contr.Idx) :
    (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
private theorem lhs128_1 (i : S128x64.Idx) (q : dot_S128x64_S64x64_S128x64_1_0_0_1_n_n.contr.Idx) :
    (dot_S128x64_S64x64_S128x64_1_0_0_1_n_n.lhsIdx i q 1).val = (q ⟨0, by decide⟩).val :=
  dot_S128x64_S64x64_S128x64_1_0_0_1_n_n.lhsIdx_val_of_single rfl i q
private theorem rhs128_0 (i : S128x64.Idx) (q : dot_S128x64_S64x64_S128x64_1_0_0_1_n_n.contr.Idx) :
    (dot_S128x64_S64x64_S128x64_1_0_0_1_n_n.rhsIdx i q 0).val = (q ⟨0, by decide⟩).val :=
  dot_S128x64_S64x64_S128x64_1_0_0_1_n_n.rhsIdx_val_of_single rfl i q
private theorem rhs128_1 (i : S128x64.Idx) (q : dot_S128x64_S64x64_S128x64_1_0_0_1_n_n.contr.Idx) :
    (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

/-- A 128 x 64 by 64 x 64 product into the zero splat, at (i, d): the sum over the 64 shared coordinates. -/
private theorem mm128_apply (A : FVec Ideal S128x64 .f32) (B : FVec Ideal S64x64 .f32) (i : Fin 128) (d : Fin 64) :
    matmul dot_S128x64_S64x64_S128x64_1_0_0_1_n_n none A B (constant (F := Ideal) S128x64 .f32 0x00000000#32) (ix2 i d)
      = ∑ f : Fin 64, A (ix2 i f) * B (ix2 f d) := by
  simp only [matmul]
  rw [Ideal.matmul_constant_zero_apply, ← Equiv.sum_comp (contrEquiv1 dot_S128x64_S64x64_S128x64_1_0_0_1_n_n 64 rfl rfl).symm]
  refine Finset.sum_congr rfl fun k _ => ?_
  have hk := contrEquiv1_symm_val dot_S128x64_S64x64_S128x64_1_0_0_1_n_n 64 rfl rfl k
  have el : dot_S128x64_S64x64_S128x64_1_0_0_1_n_n.lhsIdx (ix2 i d) ((contrEquiv1 dot_S128x64_S64x64_S128x64_1_0_0_1_n_n 64 rfl rfl).symm k) = ix2 i k := funext fun a => Fin.ext (by
    match a with
    | ⟨0, _⟩ => exact lhs128_0 _ _
    | ⟨1, _⟩ => exact (lhs128_1 _ _).trans hk)
  have er : dot_S128x64_S64x64_S128x64_1_0_0_1_n_n.rhsIdx (ix2 i d) ((contrEquiv1 dot_S128x64_S64x64_S128x64_1_0_0_1_n_n 64 rfl rfl).symm k) = ix2 k d := funext fun a => Fin.ext (by
    match a with
    | ⟨0, _⟩ => exact (rhs128_0 _ _).trans hk
    | ⟨1, _⟩ => exact rhs128_1 _ _)
  rw [el, er]

private theorem lhs1_0 (i : S1x64.Idx) (q : dot_S1x64_S64x64_S1x64_1_0_0_1_n_n.contr.Idx) :
    (dot_S1x64_S64x64_S1x64_1_0_0_1_n_n.lhsIdx i q 0).val = (i 0).val := by
  unfold DotDims.lhsIdx
  rw [dif_neg (show ¬(0 : Fin S1x64.rank) ∈ dot_S1x64_S64x64_S1x64_1_0_0_1_n_n.lhsBatch by decide), dif_pos (show (0 : Fin S1x64.rank) ∈ dot_S1x64_S64x64_S1x64_1_0_0_1_n_n.lhsNonContracting by decide)]
  rfl
private theorem lhs1_1 (i : S1x64.Idx) (q : dot_S1x64_S64x64_S1x64_1_0_0_1_n_n.contr.Idx) :
    (dot_S1x64_S64x64_S1x64_1_0_0_1_n_n.lhsIdx i q 1).val = (q ⟨0, by decide⟩).val :=
  dot_S1x64_S64x64_S1x64_1_0_0_1_n_n.lhsIdx_val_of_single rfl i q
private theorem rhs1_0 (i : S1x64.Idx) (q : dot_S1x64_S64x64_S1x64_1_0_0_1_n_n.contr.Idx) :
    (dot_S1x64_S64x64_S1x64_1_0_0_1_n_n.rhsIdx i q 0).val = (q ⟨0, by decide⟩).val :=
  dot_S1x64_S64x64_S1x64_1_0_0_1_n_n.rhsIdx_val_of_single rfl i q
private theorem rhs1_1 (i : S1x64.Idx) (q : dot_S1x64_S64x64_S1x64_1_0_0_1_n_n.contr.Idx) :
    (dot_S1x64_S64x64_S1x64_1_0_0_1_n_n.rhsIdx i q 1).val = (i 1).val := by
  unfold DotDims.rhsIdx
  rw [dif_neg (show ¬(1 : Fin S64x64.rank) ∈ dot_S1x64_S64x64_S1x64_1_0_0_1_n_n.rhsBatch by decide), dif_pos (show (1 : Fin S64x64.rank) ∈ dot_S1x64_S64x64_S1x64_1_0_0_1_n_n.rhsNonContracting by decide)]
  rfl

/-- A 1 x 64 by 64 x 64 product into the zero splat, at (0, d): the sum over the 64 shared coordinates. -/
private theorem mm1_apply (A : FVec Ideal S1x64 .f32) (B : FVec Ideal S64x64 .f32) (d : Fin 64) :
    matmul dot_S1x64_S64x64_S1x64_1_0_0_1_n_n none A B (constant (F := Ideal) S1x64 .f32 0x00000000#32) (ix2 0 d)
      = ∑ f : Fin 64, A (ix2 0 f) * B (ix2 f d) := by
  simp only [matmul]
  rw [Ideal.matmul_constant_zero_apply, ← Equiv.sum_comp (contrEquiv1 dot_S1x64_S64x64_S1x64_1_0_0_1_n_n 64 rfl rfl).symm]
  refine Finset.sum_congr rfl fun k _ => ?_
  have hk := contrEquiv1_symm_val dot_S1x64_S64x64_S1x64_1_0_0_1_n_n 64 rfl rfl k
  have el : dot_S1x64_S64x64_S1x64_1_0_0_1_n_n.lhsIdx (ix2 0 d) ((contrEquiv1 dot_S1x64_S64x64_S1x64_1_0_0_1_n_n 64 rfl rfl).symm k) = ix2 0 k := funext fun a => Fin.ext (by
    match a with
    | ⟨0, _⟩ => exact lhs1_0 _ _
    | ⟨1, _⟩ => exact (lhs1_1 _ _).trans hk)
  have er : dot_S1x64_S64x64_S1x64_1_0_0_1_n_n.rhsIdx (ix2 0 d) ((contrEquiv1 dot_S1x64_S64x64_S1x64_1_0_0_1_n_n 64 rfl rfl).symm k) = ix2 k d := funext fun a => Fin.ext (by
    match a with
    | ⟨0, _⟩ => exact (rhs1_0 _ _).trans hk
    | ⟨1, _⟩ => exact rhs1_1 _ _)
  rw [el, er]

/-- The s-th 64-wide column block of the 64 x 320 matrix, transposed, at (f, d): row d, column 64 s + f. -/
private theorem slab_apply (v2 : FVec Ideal S64x320 .f32) (off : Nat) (h : S64x320.Slices ![0, off] S64x64)
    (ht : S64x64.Transposes [1, 0] S64x64) (s : Fin 5) (hs : off = 64 * s.val) (f d : Fin 64) :
    transpose S64x64 [1, 0] (extractStridedSlice S64x64 ![0, off] v2 h) ht (ix2 f d) = mat320 v2 d (col s f) := by
  refine (transpose_ix2_apply _ ht f d).trans ?_
  refine slice2_axis1_apply off v2 h d f (col s f) ?_
  show 64 * s.val + f.val = off + f.val
  omega

/-- Row i of a 128 x 64 array contracted with block s of the matrix. -/
private theorem mmW128_apply (A : FVec Ideal S128x64 .f32) (v2 : FVec Ideal S64x320 .f32) (off : Nat)
    (h : S64x320.Slices ![0, off] S64x64) (ht : S64x64.Transposes [1, 0] S64x64) (s : Fin 5) (hs : off = 64 * s.val)
    (i : Fin 128) (d : Fin 64) (X : Fin 64 → EReal) (hX : ∀ f, A (ix2 i f) = X f) :
    matmul dot_S128x64_S64x64_S128x64_1_0_0_1_n_n none A
        (transpose S64x64 [1, 0] (extractStridedSlice S64x64 ![0, off] v2 h) ht)
        (constant (F := Ideal) S128x64 .f32 0x00000000#32) (ix2 i d)
      = proj (mat320 v2) s X d := by
  refine (mm128_apply A _ i d).trans ?_
  unfold proj
  exact Finset.sum_congr rfl fun f _ => congrArg₂ (· * ·) (hX f) (slab_apply v2 off h ht s hs f d)

/-- The one row of a 1 x 64 array contracted with block s of the matrix. -/
private theorem mmW1_apply (A : FVec Ideal S1x64 .f32) (v2 : FVec Ideal S64x320 .f32) (off : Nat)
    (h : S64x320.Slices ![0, off] S64x64) (ht : S64x64.Transposes [1, 0] S64x64) (s : Fin 5) (hs : off = 64 * s.val)
    (d : Fin 64) (X : Fin 64 → EReal) (hX : ∀ f, A (ix2 0 f) = X f) :
    matmul dot_S1x64_S64x64_S1x64_1_0_0_1_n_n none A
        (transpose S64x64 [1, 0] (extractStridedSlice S64x64 ![0, off] v2 h) ht)
        (constant (F := Ideal) S1x64 .f32 0x00000000#32) (ix2 0 d)
      = proj (mat320 v2) s X d := by
  refine (mm1_apply A _ d).trans ?_
  unfold proj
  exact Finset.sum_congr rfl fun f _ => congrArg₂ (· * ·) (hX f) (slab_apply v2 off h ht s hs f d)

/-! ## The rank-3 layouts: a row, a column or one vector spread over the 128 x 128 pair grid -/

/-- A 128 x 64 array spread along the second pair axis: at (i, j, d) it is the array at (i, d). -/
private theorem spreadRow_apply {α : Type} (x : S128x64.Idx → α) (hc : S128x64.ShapeCasts S128x1x64)
    (hb : S128x1x64.Broadcasts S128x128x64) (i j : Fin 128) (d : Fin 64) :
    broadcastTo S128x128x64 (shapeCast S128x1x64 x hc) hb (ix3 i j d) = x (ix2 i d) := by
  refine (broadcastTo_apply _ hb (ix3 i j d) (ix3 i (0 : Fin 1) d) ?_).trans ?_
  · intro a
    match a with
    | ⟨0, _⟩ => show i.val = if (128 : Nat) = 1 then 0 else i.val; rw [if_neg (by decide)]
    | ⟨1, _⟩ => show 0 = if (1 : Nat) = 1 then 0 else j.val; rw [if_pos rfl]
    | ⟨2, _⟩ => show d.val = if (64 : Nat) = 1 then 0 else d.val; rw [if_neg (by decide)]
  · refine shapeCast_apply x hc (ix3 i (0 : Fin 1) d) (ix2 i d) ?_
    rw [Shape.rowMajor_val_two, Shape.rowMajor_val_three]
    show i.val * 64 + d.val = (i.val * 1 + 0) * 64 + d.val
    omega

/-- A 128 x 64 array spread along the first pair axis: at (i, j, d) it is the array at (j, d). -/
private theorem spreadCol_apply {α : Type} (x : S128x64.Idx → α) (hc : S128x64.ShapeCasts S1x128x64)
    (hb : S1x128x64.Broadcasts S128x128x64) (i j : Fin 128) (d : Fin 64) :
    broadcastTo S128x128x64 (shapeCast S1x128x64 x hc) hb (ix3 i j d) = x (ix2 j d) := by
  refine (broadcastTo_apply _ hb (ix3 i j d) (ix3 (0 : Fin 1) j d) ?_).trans ?_
  · intro a
    match a with
    | ⟨0, _⟩ => show 0 = if (1 : Nat) = 1 then 0 else i.val; rw [if_pos rfl]
    | ⟨1, _⟩ => show j.val = if (128 : Nat) = 1 then 0 else j.val; rw [if_neg (by decide)]
    | ⟨2, _⟩ => show d.val = if (64 : Nat) = 1 then 0 else d.val; rw [if_neg (by decide)]
  · exact shapeCast_ab_1ab_apply x hc 0 j d

/-- A 1 x 64 array spread over both pair axes: at (i, j, d) it is the array at (0, d). -/
private theorem spreadVec_apply {α : Type} (x : S1x64.Idx → α) (hc : S1x64.ShapeCasts S1x1x64)
    (hb : S1x1x64.Broadcasts S128x128x64) (i j : Fin 128) (d : Fin 64) :
    broadcastTo S128x128x64 (shapeCast S1x1x64 x hc) hb (ix3 i j d) = x (ix2 0 d) := by
  refine (broadcastTo_apply _ hb (ix3 i j d) (ix3 (0 : Fin 1) (0 : Fin 1) d) ?_).trans ?_
  · intro a
    match a with
    | ⟨0, _⟩ => show 0 = if (1 : Nat) = 1 then 0 else i.val; rw [if_pos rfl]
    | ⟨1, _⟩ => show 0 = if (1 : Nat) = 1 then 0 else j.val; rw [if_pos rfl]
    | ⟨2, _⟩ => show d.val = if (64 : Nat) = 1 then 0 else d.val; rw [if_neg (by decide)]
  · exact shapeCast_ab_1ab_apply x hc 0 0 d

/-! ## The two sums of contractions -/

theorem pay5_apply (v0 : Vec Ideal S1x1x128x64 .f32) (v2 : Vec Ideal S64x320 .f32) (v8 : Vec Ideal S64 .f32)
    (i j : Fin 128) (d : Fin 64) :
    k0_pay5 (F := Ideal) v0 v2 v8 (ix3 i j d)
      = (proj (mat320 v2) 1 (blkX v0 i) d + proj (mat320 v2) 2 (blkX v0 j) d)
          + (proj (mat320 v2) 4 (colMean (blkX v0)) d + vec64 v8 d) := by
  unfold k0_pay5
  refine (addf_apply _ _ _).trans (congrArg₂ (· + ·) ((addf_apply _ _ _).trans (congrArg₂ (· + ·) ?_ ?_)) ?_)
  · refine (spreadRow_apply _ _ _ i j d).trans ?_
    exact mmW128_apply _ v2 64 _ _ 1 rfl i d (blkX v0 i) (fun f => pay2_apply v0 i f)
  · refine (spreadCol_apply _ _ _ i j d).trans ?_
    exact mmW128_apply _ v2 128 _ _ 2 rfl j d (blkX v0 j) (fun f => pay2_apply v0 j f)
  · refine (spreadVec_apply _ _ _ i j d).trans ?_
    refine (addf_apply _ _ _).trans (congrArg₂ (· + ·) ?_ ?_)
    · exact mmW1_apply _ v2 256 _ _ 4 rfl d (colMean (blkX v0)) (fun f => pay3_apply v0 f)
    · exact shapeCast_a_1a_apply v8 _ 0 d

theorem pay7_apply (v0 : Vec Ideal S1x1x128x64 .f32) (v2 : Vec Ideal S64x320 .f32) (i j : Fin 128) (d : Fin 64) :
    k0_pay7 (F := Ideal) v0 v2 (ix3 i j d)
      = proj (mat320 v2) 0 (blkX v0 i) d + proj (mat320 v2) 3 (colMean (blkX v0)) d := by
  unfold k0_pay7
  refine (spreadRow_apply _ _ _ i j d).trans ?_
  refine (addf_apply _ _ _).trans (congrArg₂ (· + ·) ?_ ?_)
  · exact mmW128_apply _ v2 0 _ _ 0 rfl i d (blkX v0 i) (fun f => pay2_apply v0 i f)
  · refine (broadcastTo_1b_ab_apply _ _ i d).trans ?_
    exact mmW1_apply _ v2 192 _ _ 3 rfl d (colMean (blkX v0)) (fun f => pay3_apply v0 f)

end Cert.Pair.Ker

end
-- ==== Proof.KerTail.lean ====
/- The kernel's second half — normalisation, clamp, diagonal bias, second affine map — read at a pair and an output feature. -/
import proofs.«167405_j63041529970916_1_alg».proof.Proof.Gen.KernelIdeal.Skeleton
import proofs.«167405_j63041529970916_1_alg».proof.Proof.PairSpec
import Idealize.ShloMosaic.Lib.Pipeline.Value
import Idealize.ShloMosaic.Lib.ValueIdx
import Idealize.ShloMosaic.Lib.ValueLayout
import Idealize.ShloMosaic.PureOps.Ideal.Laws

noncomputable section

namespace Cert.Pair.Ker

open Idealize.ShloMosaic Idealize.ShloMosaic.ValueIdx Cert.KernelIdeal Cert.KernelIdeal.Gen Cert.Pair

/-! ## The layout operations of the second half, read at literal coordinates -/

/-- The sum over the last axis at the pair (i, j) is the sum over the 64 features there. -/
private theorem laneSum_apply (v : FVec Ideal S128x128x64 .f32) (i j : Fin 128) :
    multiReduction .add [2] S128x128 v 0x00000000#32 reduces_S128x128x64_S128x128 (.inl rfl) rfl (ix2 i j)
      = ∑ d : Fin 64, v (ix3 i j d) := by
  refine (Ideal.multiReduction_add_single v 0x00000000#32 reduces_S128x128x64_S128x128 (.inl rfl) rfl (ix2 i j)).trans ?_
  refine Finset.sum_congr rfl fun d _ => congrArg v ?_
  funext a
  match a with
  | ⟨0, _⟩ => rfl
  | ⟨1, _⟩ => rfl
  | ⟨2, _⟩ => rfl

/-- A 128 x 128 array read as 128 x 128 x 1: the same element, whatever the unit coordinate. -/
private theorem cast_pair_unit {α : Type} (x : S128x128.Idx → α) (i j : Fin 128) (u : Fin 1) :
    shapeCast S128x128x1 x shapeCasts_S128x128_S128x128x1 (ix3 i j u) = x (ix2 i j) :=
  shapeCast_apply x shapeCasts_S128x128_S128x128x1 (ix3 i j u) (ix2 i j) (by
    have hu : u.val = 0 := by omega
    rw [Shape.rowMajor_val_two, Shape.rowMajor_val_three]
    show i.val * 128 + j.val = (i.val * 128 + j.val) * 1 + u.val
    omega)

/-- A 128 x 128 x 1 array spread over the 64 features: the pair's one element. -/
private theorem bcast_pair_apply {α : Type} (x : S128x128x1.Idx → α) (i j : Fin 128) (d : Fin 64) :
    broadcastTo S128x128x64 x broadcasts_S128x128x1_S128x128x64 (ix3 i j d) = x (ix3 i j 0) := by
  refine broadcastTo_apply x broadcasts_S128x128x1_S128x128x64 (ix3 i j d) (ix3 i j (0 : Fin 1)) fun ax => ?_
  match ax with
  | ⟨0, _⟩ => rfl
  | ⟨1, _⟩ => rfl
  | ⟨2, _⟩ => rfl

/-- A 64-vector read as 1 x 1 x 64. -/
private theorem cast_feat_unit {α : Type} (x : S64.Idx → α) (u w : Fin 1) (d : Fin 64) :
    shapeCast S1x1x64 x shapeCasts_S64_S1x1x64 (ix3 u w d) = x (ix1 d) :=
  shapeCast_apply x shapeCasts_S64_S1x1x64 (ix3 u w d) (ix1 d) (by
    have hu : u.val = 0 := by omega
    have hw : w.val = 0 := by omega
    rw [Shape.rowMajor_val_one, Shape.rowMajor_val_three]
    show d.val = (u.val * 1 + w.val) * 64 + d.val
    omega)

/-- A 1 x 1 x 64 array spread over the pairs: the feature's one element. -/
private theorem bcast_feat_apply {α : Type} (x : S1x1x64.Idx → α) (i j : Fin 128) (d : Fin 64) :
    broadcastTo S128x128x64 x broadcasts_S1x1x64_S128x128x64 (ix3 i j d) = x (ix3 0 0 d) := by
  refine broadcastTo_apply x broadcasts_S1x1x64_S128x128x64 (ix3 i j d) (ix3 (0 : Fin 1) (0 : Fin 1) d) fun ax => ?_
  match ax with
  | ⟨0, _⟩ => rfl
  | ⟨1, _⟩ => rfl
  | ⟨2, _⟩ => rfl

/-- A 64-vector spread over the pairs, through 1 x 1 x 64. -/
private theorem feat_spread_apply {α : Type} (x : S64.Idx → α) (i j : Fin 128) (d : Fin 64) :
    broadcastTo S128x128x64 (shapeCast S1x1x64 x shapeCasts_S64_S1x1x64) broadcasts_S1x1x64_S128x128x64 (ix3 i j d)
      = x (ix1 d) :=
  (bcast_feat_apply _ i j d).trans (cast_feat_unit x 0 0 d)

/-- Row 128 i + j of the flattened 16384 x 64 array: the pair (i, j). -/
private def row (i j : Fin 128) : Fin 16384 := ⟨128 * i.val + j.val, by have := i.isLt; have := j.isLt; omega⟩

/-- The pairs flattened row-major: row 128 i + j of the 16384 x 64 array reads the pair (i, j). -/
private theorem cast_flat_apply {α : Type} (x : S128x128x64.Idx → α) (i j : Fin 128) (d : Fin 64) :
    shapeCast S16384x64 x shapeCasts_S128x128x64_S16384x64 (ix2 (row i j) d) = x (ix3 i j d) :=
  shapeCast_apply x shapeCasts_S128x128x64_S16384x64 (ix2 (row i j) d) (ix3 i j d) (by
    rw [Shape.rowMajor_val_three, Shape.rowMajor_val_two]
    show (i.val * 128 + j.val) * 64 + d.val = (128 * i.val + j.val) * 64 + d.val
    omega)

/-- ... and the flattened array read back by pairs. -/
private theorem cast_unflat_apply {α : Type} (x : S16384x64.Idx → α) (i j : Fin 128) (o : Fin 64) :
    shapeCast S128x128x64 x shapeCasts_S16384x64_S128x128x64 (ix3 i j o) = x (ix2 (row i j) o) :=
  shapeCast_apply x shapeCasts_S16384x64_S128x128x64 (ix3 i j o) (ix2 (row i j) o) (by
    rw [Shape.rowMajor_val_three, Shape.rowMajor_val_two]
    show (128 * i.val + j.val) * 64 + o.val = (i.val * 128 + j.val) * 64 + o.val
    omega)

/-- A 64-vector as one row, spread over the 16384 rows: its element at the column. -/
private theorem bias_row_apply {α : Type} (x : S64.Idx → α) (r : Fin 16384) (o : Fin 64) :
    broadcastTo S16384x64 (shapeCast S1x64 x shapeCasts_S64_S1x64) broadcasts_S1x64_S16384x64 (ix2 r o) = x (ix1 o) :=
  (broadcastTo_1b_ab_apply _ broadcasts_S1x64_S16384x64 r o).trans (shapeCast_a_1a_apply x shapeCasts_S64_S1x64 0 o)

/-! ## The second affine map's contraction, read at a row and an output feature -/

private theorem dotL0 (y : S16384x64.Idx) (q : dot_S16384x64_S64x64_S16384x64_1_0_0_1_n_n.contr.Idx) :
    (dot_S16384x64_S64x64_S16384x64_1_0_0_1_n_n.lhsIdx y q 0).val = (y 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
private theorem dotL1 (y : S16384x64.Idx) (q : dot_S16384x64_S64x64_S16384x64_1_0_0_1_n_n.contr.Idx) :
    (dot_S16384x64_S64x64_S16384x64_1_0_0_1_n_n.lhsIdx y q 1).val = (q ⟨0, by decide⟩).val :=
  dot_S16384x64_S64x64_S16384x64_1_0_0_1_n_n.lhsIdx_val_of_single rfl y q
private theorem dotR0 (y : S16384x64.Idx) (q : dot_S16384x64_S64x64_S16384x64_1_0_0_1_n_n.contr.Idx) :
    (dot_S16384x64_S64x64_S16384x64_1_0_0_1_n_n.rhsIdx y q 0).val = (q ⟨0, by decide⟩).val :=
  dot_S16384x64_S64x64_S16384x64_1_0_0_1_n_n.rhsIdx_val_of_single rfl y q
private theorem dotR1 (y : S16384x64.Idx) (q : dot_S16384x64_S64x64_S16384x64_1_0_0_1_n_n.contr.Idx) :
    (dot_S16384x64_S64x64_S16384x64_1_0_0_1_n_n.rhsIdx y q 1).val = (y 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The product of a 16384 x 64 array with the transpose of a 64 x 64 matrix, accumulated into zero: at row r and
    output feature o, the sum over d of the row's element d times the matrix's element (o, d). -/
private theorem matmul_row_apply (lhs : FVec Ideal S16384x64 .f32) (w : FVec Ideal S64x64 .f32) (r : Fin 16384) (o : Fin 64) :
    matmul dot_S16384x64_S64x64_S16384x64_1_0_0_1_n_n none lhs (transpose S64x64 [1, 0] w transposes_S64x64_p1_0_S64x64)
        (constant S16384x64 .f32 0x00000000#32) (ix2 r o)
      = ∑ d : Fin 64, lhs (ix2 r d) * w (ix2 o d) := by
  generalize hT : transpose S64x64 [1, 0] w transposes_S64x64_p1_0_S64x64 = wT
  have hwT : ∀ (d o' : Fin 64), wT (ix2 d o') = w (ix2 o' d) := fun d o' => by
    rw [← hT]; exact transpose_ix2_apply w transposes_S64x64_p1_0_S64x64 d o'
  refine (Ideal.matmul_constant_zero_apply dot_S16384x64_S64x64_S16384x64_1_0_0_1_n_n none lhs wT (ix2 r o)).trans ?_
  rw [← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 r o) ((contrEquiv1 dot_S16384x64_S64x64_S16384x64_1_0_0_1_n_n 64 rfl rfl).symm k) = ix2 r k := funext fun a => Fin.ext (by
    match a with
    | ⟨0, _⟩ => exact dotL0 _ _
    | ⟨1, _⟩ => exact (dotL1 _ _).trans hk)
  have er : dot_S16384x64_S64x64_S16384x64_1_0_0_1_n_n.rhsIdx (ix2 r o) ((contrEquiv1 dot_S16384x64_S64x64_S16384x64_1_0_0_1_n_n 64 rfl rfl).symm k) = ix2 k o := funext fun a => Fin.ext (by
    match a with
    | ⟨0, _⟩ => exact (dotR0 _ _).trans hk
    | ⟨1, _⟩ => exact dotR1 _ _)
  rw [el, er, hwT]

/-! ## Layer normalisation over the 64 features of a pair -/

/-- The lane means: the lane sum divided by the float 64.0, as a 128 x 128 x 1 array. -/
private abbrev meanArr (v : FVec Ideal S128x128x64 .f32) : FVec Ideal S128x128x1 .f32 :=
  divf (shapeCast S128x128x1 (multiReduction .add [2] S128x128 v 0x00000000#32 reduces_S128x128x64_S128x128 (.inl rfl) rfl) shapeCasts_S128x128_S128x128x1)
    (broadcast S128x128x1 (Scalar.ofBits (F := Ideal) .f32 0x42800000#32))

/-- At a pair it is the mean of the pair's 64 values. -/
private theorem meanArr_apply (v : FVec Ideal S128x128x64 .f32) (i j : Fin 128) (u : Fin 1) :
    meanArr v (ix3 i j u) = mean64 (fun d => v (ix3 i j d)) :=
  congrArg (fun t => Ideal.div t (Ideal.ofBits .f32 0x42800000#32)) ((cast_pair_unit _ i j u).trans (laneSum_apply v i j))

/-- Every feature less its pair's mean. -/
private abbrev centred (v : FVec Ideal S128x128x64 .f32) : FVec Ideal S128x128x64 .f32 :=
  subf v (broadcastTo S128x128x64 (meanArr v) broadcasts_S128x128x1_S128x128x64)

private theorem centred_apply (v : FVec Ideal S128x128x64 .f32) (i j : Fin 128) (d : Fin 64) :
    centred v (ix3 i j d) = v (ix3 i j d) - mean64 (fun d' => v (ix3 i j d')) :=
  congrArg (fun t => v (ix3 i j d) - t) ((bcast_pair_apply (meanArr v) i j d).trans (meanArr_apply v i j 0))

/-- The reciprocal square root of the mean square of a centred array plus eps, spread back over the features. -/
private abbrev rstdArr (c : FVec Ideal S128x128x64 .f32) : FVec Ideal S128x128x64 .f32 :=
  broadcastTo S128x128x64
    (rsqrt (addf (meanArr (mulf c c)) (broadcast S128x128x1 (Scalar.ofBits (F := Ideal) .f32 0x3727C5AC#32))))
    broadcasts_S128x128x1_S128x128x64

private theorem rstdArr_apply (c : FVec Ideal S128x128x64 .f32) (i j : Fin 128) (d : Fin 64) :
    rstdArr c (ix3 i j d)
      = Ideal.rsqrt (mean64 (fun d' => c (ix3 i j d') * c (ix3 i j d')) + Ideal.ofBits .f32 0x3727C5AC#32) :=
  (bcast_pair_apply _ i j d).trans
    (congrArg (fun t => Ideal.rsqrt (t + Ideal.ofBits .f32 0x3727C5AC#32)) (meanArr_apply (mulf c c) i j 0))

/-- The normalised array at (i, j, d): `normed` of the pair's 64 values at feature d. -/
private theorem normed_apply (v : FVec Ideal S128x128x64 .f32) (i j : Fin 128) (d : Fin 64) :
    mulf (centred v) (rstdArr (centred v)) (ix3 i j d) = normed (fun d' => v (ix3 i j d')) d := by
  refine (mulf_apply _ _ _).trans ?_
  unfold normed
  refine congrArg₂ (· * ·) (centred_apply v i j d) ((rstdArr_apply (centred v) i j d).trans ?_)
  exact congrArg (fun f : Fin 64 → EReal => Ideal.rsqrt (mean64 f + Ideal.ofBits .f32 0x3727C5AC#32))
    (funext fun d' => congrArg₂ (· * ·) (centred_apply v i j d') (centred_apply v i j d'))

theorem pay8_apply (v32 : FVec Ideal S128x128x1 .f32) (v40 v42 v43 : FVec Ideal S128x128x64 .f32)
    (v57 v58 v74 : Vec Ideal S64 .f32) (v80 : Vec Ideal S64x64 .f32) (v81 : Vec Ideal S64 .f32)
    (i j : Fin 128) (o : Fin 64) :
    k0_pay8 (F := Ideal) v32 v40 v42 v43 v57 v58 v74 v80 v81 (ix3 i j o)
      = tail (fun d => v40 (ix3 i j d) + v42 (ix3 i j d) * v43 (ix3 i j d)) (v32 (ix3 i j 0))
          (vec64 v57) (vec64 v58) (vec64 v74) (mat64 v80) (vec64 v81) o := by
  unfold k0_pay8
  -- the result by pairs is the flattened result at row 128 i + j
  refine (cast_unflat_apply _ i j o).trans ?_
  refine (addf_apply _ _ _).trans ?_
  unfold tail
  refine congrArg₂ (· + ·) ?_ (bias_row_apply v81 (row i j) o)
  -- the contraction with the second weight matrix, feature by feature
  refine (matmul_row_apply _ v80 (row i j) o).trans ?_
  refine Finset.sum_congr rfl fun d _ => congrArg (· * v80 (ix2 o d)) ?_
  refine (cast_flat_apply _ i j d).trans ?_
  -- the activated value at (i, j, d)
  refine (addf_apply _ _ _).trans ?_
  unfold act
  refine congrArg₂ (· + ·) ?_ ?_
  · -- the clamp at zero of the scaled and shifted normalised value
    refine (maximumf_apply _ _ _).trans ?_
    refine congrArg₂ max ?_ Ideal.ofBits_zero_f32
    refine (addf_apply _ _ _).trans ?_
    refine congrArg₂ (· + ·) ?_ (feat_spread_apply v58 i j d)
    refine (mulf_apply _ _ _).trans ?_
    refine congrArg₂ (· * ·) ?_ (feat_spread_apply v57 i j d)
    exact normed_apply (addf v40 (mulf v42 v43)) i j d
  · -- the bias, times the pair's diagonal indicator
    refine (mulf_apply _ _ _).trans ?_
    exact congrArg₂ (· * ·) (feat_spread_apply v74 i j d) (bcast_pair_apply v32 i j d)

end Cert.Pair.Ker

end
-- ==== Proof.KerBlock.lean ====
/- One grid point's block of the kernel's result: at the pair (i, j) and output feature o it is the tail of the
   64 pre-activations of that pair, computed the kernel's way from the point's slab of the input. -/
import proofs.«167405_j63041529970916_1_alg».proof.Proof.KerPre
import proofs.«167405_j63041529970916_1_alg».proof.Proof.KerTail

noncomputable section

namespace Cert.Pair.Ker

open Idealize.ShloMosaic Idealize.ShloMosaic.ValueIdx Cert.KernelIdeal Cert.KernelIdeal.Gen Cert.Pair

/-- The body's value at (i, j, o), over the eight loaded blocks as variables: the first affine map in its split
    form feeds the tail, the diagonal indicator being the same in both places it is used. -/
theorem block_apply (P0 : Vec Ideal S1x1x128x64 .f32) (P1 : Vec Ideal S64x320 .f32) (P2 P3 P4 P5 : Vec Ideal S64 .f32)
    (P6 : Vec Ideal S64x64 .f32) (P7 : Vec Ideal S64 .f32) (i j : Fin 128) (o : Fin 64) :
    k0_pay8 (F := Ideal) (k0_pay4 (F := Ideal)) (k0_pay5 (F := Ideal) P0 P1 P2) (k0_pay6 (F := Ideal))
        (k0_pay7 (F := Ideal) P0 P1) P3 P4 P5 P6 P7 (ix3 i j o)
      = tail (fun d => preSplit (blkX P0) (mat320 P1) (vec64 P2) i j d) (diag i j)
          (vec64 P3) (vec64 P4) (vec64 P5) (mat64 P6) (vec64 P7) o := by
  refine (pay8_apply (k0_pay4 (F := Ideal)) (k0_pay5 (F := Ideal) P0 P1 P2) (k0_pay6 (F := Ideal))
    (k0_pay7 (F := Ideal) P0 P1) P3 P4 P5 P6 P7 i j o).trans ?_
  rw [pay4_apply i j]
  refine congrArg (fun h => tail h (diag i j) (vec64 P3) (vec64 P4) (vec64 P5) (mat64 P6) (vec64 P7) o) ?_
  funext d
  rw [pay5_apply P0 P1 P2 i j d, pay6_apply i j d, pay7_apply P0 P1 i j d]
  rfl

end Cert.Pair.Ker

end
-- ==== Proof.KerArray.lean ====
/- From blocks to the array, and the kernel's run: the 4 x 8 grid's blocks tile the result array, block (b, u)
   being the tail of slab (b, u)'s pre-activations; so the array after the run is one function of the arguments. -/
import proofs.«167405_j63041529970916_1_alg».proof.Proof.Gen.KernelIdeal.Value
import proofs.«167405_j63041529970916_1_alg».proof.Proof.KerBlock

set_option maxRecDepth 16384

noncomputable section

namespace Cert.Pair.Ker

open Idealize.ShloMosaic Idealize.ShloMosaic.TcCoe Idealize.ShloMosaic.ValueIdx Idealize.SL.Sem
open Cert.KernelIdeal Cert.KernelIdeal.Gen Cert.Pair
open Idealize.ShloMosaic.Pipeline (Dat)

variable (m : (ℓ : Loc nD τ sig) → Buf (Elt Ideal) ℓ) (ρ : Dev nD → PrngReg)

/-- The result array as the kernel computes it, of the eight argument arrays as launched. -/
def G (c : Dev nD) : FVec Ideal S4x8x128x128x64 .f32 :=
  outArr preSplit (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, at a block index y, over the eight staged blocks as variables. -/
theorem out_apply (x0 : Vec Ideal S1x1x128x64 .f32) (x1 : Vec Ideal S64x320 .f32) (x2 x3 x4 x5 : Vec Ideal S64 .f32)
    (x6 : Vec Ideal S64x64 .f32) (x7 : Vec Ideal S64 .f32) (y : S1x1x128x128x64.Idx) :
    out0_8 (F := Ideal) x0 x1 x2 x3 x4 x5 x6 x7 y
      = tail (fun d => preSplit (blkX x0) (mat320 x1) (vec64 x2) ⟨(y 2).val, (y 2).isLt⟩ ⟨(y 3).val, (y 3).isLt⟩ d)
          (diag ⟨(y 2).val, (y 2).isLt⟩ ⟨(y 3).val, (y 3).isLt⟩)
          (vec64 x3) (vec64 x4) (vec64 x5) (mat64 x6) (vec64 x7) ⟨(y 4).val, (y 4).isLt⟩ := by
  unfold out0_8
  refine (Cert.KernelIdeal.Value.canon8_eq (F := Ideal) _ _ _ _ _ _ _ _ y).trans ?_
  simp only [View.ld_unit_zero (S := S1x1x128x64) hz4, View.ld_unit_zero (S := S64x320) hz2,
    View.ld_unit_zero (S := S64) hz1, View.ld_unit_zero (S := S64x64) hz2]
  have e : Cert.KernelIdeal.Value.ix8_0 y
      = ix3 (⟨(y 2).val, (y 2).isLt⟩ : Fin 128) (⟨(y 3).val, (y 3).isLt⟩ : Fin 128) (⟨(y 4).val, (y 4).isLt⟩ : Fin 64) :=
    funext fun a => Fin.ext (by match a with | ⟨0, _⟩ => rfl | ⟨1, _⟩ => rfl | ⟨2, _⟩ => rfl)
  show k0_pay8 (F := Ideal) (k0_pay4 (F := Ideal)) (k0_pay5 (F := Ideal) x0 x1 x2) (k0_pay6 (F := Ideal))
      (k0_pay7 (F := Ideal) x0 x1) x3 x4 x5 x6 x7 (Cert.KernelIdeal.Value.ix8_0 y) = _
  rw [e]
  exact block_apply x0 x1 x2 x3 x4 x5 x6 x7 _ _ _

/-- The printed index maps over the 32 grid points: the input slab and the output block sit at the same (b, u);
    every other window is its whole array. -/
theorem idx_facts : ∀ t : Fin cfg0.N,
    win0_0.index t (0 : Fin 4) = win0_8.index t (0 : Fin 5) ∧ win0_0.index t (1 : Fin 4) = win0_8.index t (1 : Fin 5)
    ∧ win0_0.index t (2 : Fin 4) = 0 ∧ win0_0.index t (3 : Fin 4) = 0
    ∧ win0_8.index t (0 : Fin 5) < 4 ∧ win0_8.index t (1 : Fin 5) < 8
    ∧ win0_8.index t (2 : Fin 5) = 0 ∧ win0_8.index t (3 : Fin 5) = 0 ∧ win0_8.index t (4 : Fin 5) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- Every (b, u) is some point's block. -/
theorem idx_onto : ∀ (q0 : Fin 4) (q1 : Fin 8), ∃ t : Fin cfg0.N, win0_8.index t = ![q0.val, q1.val, 0, 0, 0] :=
  (by decide +kernel : ∀ (q0 : Fin 4) (q1 : Fin 8), ∃ t : Fin grid0.N, win0_8.index t = ![q0.val, q1.val, 0, 0, 0])

/-- `G` at an index whose coordinates are (b, u, i, j, o). -/
theorem G_apply (c : Dev nD) (z : S4x8x128x128x64.Idx) (b : Fin 4) (u : Fin 8) (i j : Fin 128) (o : Fin 64)
    (h0 : (z 0).val = b.val) (h1 : (z 1).val = u.val) (h2 : (z 2).val = i.val) (h3 : (z 3).val = j.val)
    (h4 : (z 4).val = o.val) :
    G m c z = outWith preSplit (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      b u i j o := by
  have e : z = ix5 b u i j o := funext fun a => Fin.ext (by
    match a with
    | ⟨0, _⟩ => exact h0
    | ⟨1, _⟩ => exact h1
    | ⟨2, _⟩ => exact h2
    | ⟨3, _⟩ => exact h3
    | ⟨4, _⟩ => exact h4)
  rw [e]
  rfl

/-- What point t writes back is block t of `G`: the output block sits at (b, u, 0, 0, 0), the input slab at
    (b, u, 0, 0), and the seven parameter windows are their whole arrays. -/
theorem flushed_eq (c : Dev nD) (t : Fin cfg0.N) :
    (dats m 0 c).flushed 8 t = ((cfg0.win 8).blk t).view.read (Elt Ideal) (G m c) := by
  rw [Cert.KernelIdeal.Value.flushed8]
  obtain ⟨e00, e01, e02, e03, l0, l1, e82, e83, e84, e10, e11, e2, e3, e4, e5, e60, e61, e7⟩ := idx_facts t
  funext y
  have hy0 : (y 0).val < 1 := (y 0).isLt
  have hy1 : (y 1).val < 1 := (y 1).isLt
  have hy2 : (y 2).val < 128 := (y 2).isLt
  have hy3 : (y 3).val < 128 := (y 3).isLt
  have hy4 : (y 4).val < 64 := (y 4).isLt
  show out0_8 (F := Ideal) (iblk m c 0 t) (iblk m c 1 t) (iblk m c 2 t) (iblk m c 3 t) (iblk m c 4 t) (iblk m c 5 t)
      (iblk m c 6 t) (iblk m c 7 t) y = G m c (((cfg0.win 8).blk t).view.emb y)
  refine (out_apply (iblk m c 0 t) (iblk m c 1 t) (iblk m c 2 t) (iblk m c 3 t) (iblk m c 4 t) (iblk m c 5 t)
    (iblk m c 6 t) (iblk m c 7 t) y).trans ?_
  refine Eq.trans ?_ (G_apply m c (((cfg0.win 8).blk t).view.emb y) ⟨win0_8.index t (0 : Fin 5), l0⟩
    ⟨win0_8.index t (1 : Fin 5), l1⟩ ⟨(y 2).val, hy2⟩ ⟨(y 3).val, hy3⟩ ⟨(y 4).val, hy4⟩
    (by show win0_8.index t (0 : Fin 5) * 1 + 1 * (y 0).val = win0_8.index t (0 : Fin 5); omega)
    (by show win0_8.index t (1 : Fin 5) * 1 + 1 * (y 1).val = win0_8.index t (1 : Fin 5); omega)
    (by show win0_8.index t (2 : Fin 5) * 128 + 1 * (y 2).val = (y 2).val; omega)
    (by show win0_8.index t (3 : Fin 5) * 128 + 1 * (y 3).val = (y 3).val; omega)
    (by show win0_8.index t (4 : Fin 5) * 64 + 1 * (y 4).val = (y 4).val; omega)).symm
  unfold outWith
  have hX : blkX (iblk m c 0 t) = slab (m ((c : Thread nD τ).loc main_arg0)) ⟨win0_8.index t (0 : Fin 5), l0⟩
      ⟨win0_8.index t (1 : Fin 5), l1⟩ := by
    funext i f
    show V m c main_arg0 (((cfg0.win 0).blk t).view.emb (ix4 (0 : Fin 1) (0 : Fin 1) i f)) = m ((c : Thread nD τ).loc main_arg0) _
    refine congrArg (m ((c : Thread nD τ).loc main_arg0)) (funext fun a => Fin.ext ?_)
    match a with
    | ⟨0, _⟩ => show win0_0.index t (0 : Fin 4) * 1 + 1 * 0 = win0_8.index t (0 : Fin 5); omega
    | ⟨1, _⟩ => show win0_0.index t (1 : Fin 4) * 1 + 1 * 0 = win0_8.index t (1 : Fin 5); omega
    | ⟨2, _⟩ => show win0_0.index t (2 : Fin 4) * 128 + 1 * i.val = i.val; omega
    | ⟨3, _⟩ => show win0_0.index t (3 : Fin 4) * 64 + 1 * f.val = f.val; omega
  have hW1 : mat320 (iblk m c 1 t) = mat320 (m ((c : Thread nD τ).loc main_arg1)) := by
    funext d k
    show V m c main_arg1 (((cfg0.win 1).blk t).view.emb (ix2 d k)) = m ((c : Thread nD τ).loc main_arg1) _
    refine congrArg (m ((c : Thread nD τ).loc main_arg1)) (funext fun a => Fin.ext ?_)
    match a with
    | ⟨0, _⟩ => show win0_1.index t (0 : Fin 2) * 64 + 1 * d.val = d.val; omega
    | ⟨1, _⟩ => show win0_1.index t (1 : Fin 2) * 320 + 1 * k.val = k.val; omega
  have hb1 : vec64 (iblk m c 2 t) = vec64 (m ((c : Thread nD τ).loc main_arg2)) := by
    funext d
    show V m c main_arg2 (((cfg0.win 2).blk t).view.emb (ix1 d)) = m ((c : Thread nD τ).loc main_arg2) _
    refine congrArg (m ((c : Thread nD τ).loc main_arg2)) (funext fun a => Fin.ext ?_)
    match a with
    | ⟨0, _⟩ => show win0_2.index t (0 : Fin 1) * 64 + 1 * d.val = d.val; omega
  have hg : vec64 (iblk m c 3 t) = vec64 (m ((c : Thread nD τ).loc main_arg3)) := by
    funext d
    show V m c main_arg3 (((cfg0.win 3).blk t).view.emb (ix1 d)) = m ((c : Thread nD τ).loc main_arg3) _
    refine congrArg (m ((c : Thread nD τ).loc main_arg3)) (funext fun a => Fin.ext ?_)
    match a with
    | ⟨0, _⟩ => show win0_3.index t (0 : Fin 1) * 64 + 1 * d.val = d.val; omega
  have hβ : vec64 (iblk m c 4 t) = vec64 (m ((c : Thread nD τ).loc main_arg4)) := by
    funext d
    show V m c main_arg4 (((cfg0.win 4).blk t).view.emb (ix1 d)) = m ((c : Thread nD τ).loc main_arg4) _
    refine congrArg (m ((c : Thread nD τ).loc main_arg4)) (funext fun a => Fin.ext ?_)
    match a with
    | ⟨0, _⟩ => show win0_4.index t (0 : Fin 1) * 64 + 1 * d.val = d.val; omega
  have hbias : vec64 (iblk m c 5 t) = vec64 (m ((c : Thread nD τ).loc main_arg5)) := by
    funext d
    show V m c main_arg5 (((cfg0.win 5).blk t).view.emb (ix1 d)) = m ((c : Thread nD τ).loc main_arg5) _
    refine congrArg (m ((c : Thread nD τ).loc main_arg5)) (funext fun a => Fin.ext ?_)
    match a with
    | ⟨0, _⟩ => show win0_5.index t (0 : Fin 1) * 64 + 1 * d.val = d.val; omega
  have hW2 : mat64 (iblk m c 6 t) = mat64 (m ((c : Thread nD τ).loc main_arg6)) := by
    funext o d
    show V m c main_arg6 (((cfg0.win 6).blk t).view.emb (ix2 o d)) = m ((c : Thread nD τ).loc main_arg6) _
    refine congrArg (m ((c : Thread nD τ).loc main_arg6)) (funext fun a => Fin.ext ?_)
    match a with
    | ⟨0, _⟩ => show win0_6.index t (0 : Fin 2) * 64 + 1 * o.val = o.val; omega
    | ⟨1, _⟩ => show win0_6.index t (1 : Fin 2) * 64 + 1 * d.val = d.val; omega
  have hb2 : vec64 (iblk m c 7 t) = vec64 (m ((c : Thread nD τ).loc main_arg7)) := by
    funext d
    show V m c main_arg7 (((cfg0.win 7).blk t).view.emb (ix1 d)) = m ((c : Thread nD τ).loc main_arg7) _
    refine congrArg (m ((c : Thread nD τ).loc main_arg7)) (funext fun a => Fin.ext ?_)
    match a with
    | ⟨0, _⟩ => show win0_7.index t (0 : Fin 1) * 64 + 1 * d.val = d.val; omega
  rw [hX, hW1, hb1, hg, hβ, hbias, hW2, hb2]

/-- An index of the array is in point t's block iff each coordinate is in the block's range on its axis. -/
theorem mem_blk (t : Fin cfg0.N) (i : S4x8x128x128x64.Idx) :
    i ∈ ((cfg0.win 8).blk t).view.set ↔ ∀ a : Fin 5, win0_8.index t a * S1x1x128x128x64.size a ≤ (i a).val
      ∧ (i a).val < win0_8.index t a * S1x1x128x128x64.size a + S1x1x128x128x64.size a := by
  show i ∈ ((View.whole main_v0).slice (win0_8.rect t)).set ↔ _
  rw [View.set_slice_whole, Rect.mem_set_unit]
  exact Iff.rfl

/-- The 32 blocks tile the array: the index (b, u, i, j, o) lies in the block of the point whose index is (b, u). -/
theorem cover (i : S4x8x128x128x64.Idx) :
    ∃ t : Fin cfg0.N, (cfg0.win 8).flush t = true ∧ i ∈ ((cfg0.win 8).blk t).view.set := by
  have hi0 : (i 0).val < 4 := (i 0).isLt
  have hi1 : (i 1).val < 8 := (i 1).isLt
  have hi2 : (i 2).val < 128 := (i 2).isLt
  have hi3 : (i 3).val < 128 := (i 3).isLt
  have hi4 : (i 4).val < 64 := (i 4).isLt
  obtain ⟨t, ht⟩ := idx_onto ⟨(i 0).val, hi0⟩ ⟨(i 1).val, hi1⟩
  have q0 : win0_8.index t (0 : Fin 5) = (i 0).val := congrFun ht 0
  have q1 : win0_8.index t (1 : Fin 5) = (i 1).val := congrFun ht 1
  have q2 : win0_8.index t (2 : Fin 5) = 0 := congrFun ht 2
  have q3 : win0_8.index t (3 : Fin 5) = 0 := congrFun ht 3
  have q4 : win0_8.index t (4 : Fin 5) = 0 := congrFun ht 4
  refine ⟨t, flush0_8 t, ?_⟩
  rw [mem_blk]
  intro a
  match a with
  | ⟨0, _⟩ => show win0_8.index t (0 : Fin 5) * 1 ≤ (i 0).val ∧ (i 0).val < win0_8.index t (0 : Fin 5) * 1 + 1; omega
  | ⟨1, _⟩ => show win0_8.index t (1 : Fin 5) * 1 ≤ (i 1).val ∧ (i 1).val < win0_8.index t (1 : Fin 5) * 1 + 1; omega
  | ⟨2, _⟩ => show win0_8.index t (2 : Fin 5) * 128 ≤ (i 2).val ∧ (i 2).val < win0_8.index t (2 : Fin 5) * 128 + 128; omega
  | ⟨3, _⟩ => show win0_8.index t (3 : Fin 5) * 128 ≤ (i 3).val ∧ (i 3).val < win0_8.index t (3 : Fin 5) * 128 + 128; omega
  | ⟨4, _⟩ => show win0_8.index t (4 : Fin 5) * 64 ≤ (i 4).val ∧ (i 4).val < win0_8.index t (4 : Fin 5) * 64 + 64; omega

/-- The result array after the run is `G`. -/
theorem final (c : Dev nD) : (dats m 0 c).arrAt 8 cfg0.N = G m c :=
  (dats m 0 c).arrAt_eq_of_cover 8 (G m c) (fun t _ => flushed_eq m c t) cover

/-- The kernel's run: every weakly fair execution ends with the result at `G` of the arguments as launched, the
    arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Pair.Ker

end
-- ==== Proof.RefPre.lean ====
/- The reference's first affine map, read at (b, u, i, j, d): the concatenated 320-wide feature vector contracted with W1. -/
import proofs.«167405_j63041529970916_1_alg».proof.Proof.Gen.ReferenceIdeal.Read
import proofs.«167405_j63041529970916_1_alg».proof.Proof.PairSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.Pair.Ref

open Idealize.ShloMosaic Idealize.ShloMosaic.ValueIdx Cert.ReferenceIdeal Cert.ReferenceIdeal.Gen Cert.ReferenceIdeal.Read Cert.Pair

/-- The reference's diagonal mask at (i, j). -/
theorem v6_apply (i j : Fin 128) : val_main_v6 (F := Ideal) (ix3 i j 0) = diag i j := by
  rw [val_main_v6_apply, val_main_v5_apply, val_main_v4_apply, val_main_v3_apply, val_main_v2_apply, val_main_c_apply,
    val_main_v0_apply, val_main_v1_apply]
  show (((IntOp.cmpi .eq (IntOp.addi (BitVec.ofNat 32 i.val) 0#32) (BitVec.ofNat 32 j.val)).toNat : ℝ) : EReal) = diag i j
  have hadd : IntOp.addi (BitVec.ofNat 32 i.val) 0#32 = BitVec.ofNat 32 i.val := BitVec.add_zero _
  rw [hadd]
  unfold diag
  by_cases h : i = j
  · subst h
    rw [if_pos rfl, StableHlo.Predicate.cmpi_eq_iff.2 rfl]
    norm_num
  · have hne : ¬ (BitVec.ofNat 32 i.val = BitVec.ofNat 32 j.val) := by
      intro e
      have e' := congrArg BitVec.toNat e
      rw [BitVec.toNat_ofNat, BitVec.toNat_ofNat, Nat.mod_eq_of_lt (by have := i.isLt; omega),
        Nat.mod_eq_of_lt (by have := j.isLt; omega)] at e'
      exact h (Fin.ext e')
    have h0 : IntOp.cmpi .eq (BitVec.ofNat 32 i.val) (BitVec.ofNat 32 j.val) = 0#1 :=
      eq_zero_of_ne_one (fun e => hne (StableHlo.Predicate.cmpi_eq_iff.1 e))
    rw [if_neg h, h0]
    norm_num

/-! ## The pieces of the feature vector at (b, u, i, j, f) -/

/-- The diagonal mask broadcast to the full pair grid (first copy). -/
private theorem v14_at (b : Fin 4) (u : Fin 8) (i j : Fin 128) (f : Fin 64) :
    val_main_v14 (F := Ideal) (ix5 b u i j f) = diag i j := by
  rw [val_main_v14_apply, val_main_v12_apply]
  have e : idx_main_v12 (idx_main_v14 (ix5 b u i j f)) = ix3 i j 0 := by
    funext a; match a with | ⟨0, _⟩ => rfl | ⟨1, _⟩ => rfl | ⟨2, _⟩ => rfl
  rw [e, v6_apply]

/-- The diagonal mask broadcast to the full pair grid (second copy). -/
private theorem v23_at (b : Fin 4) (u : Fin 8) (i j : Fin 128) (f : Fin 64) :
    val_main_v23 (F := Ideal) (ix5 b u i j f) = diag i j := by
  rw [val_main_v23_apply, val_main_v21_apply]
  have e : idx_main_v21 (idx_main_v23 (ix5 b u i j f)) = ix3 i j 0 := by
    funext a; match a with | ⟨0, _⟩ => rfl | ⟨1, _⟩ => rfl | ⟨2, _⟩ => rfl
  rw [e, v6_apply]

/-- Row i of the slab, broadcast over j (first copy). -/
private theorem v13_at (x0 : (⟨S4x8x128x64, .f32⟩ : BufTy).Contents (Elt Ideal)) (b : Fin 4) (u : Fin 8) (i j : Fin 128) (f : Fin 64) :
    val_main_v13 (F := Ideal) x0 (ix5 b u i j f) = slab x0 b u i f := by
  rw [val_main_v13_apply, val_main_v11_apply]
  exact congrArg x0 (funext fun a => by match a with | ⟨0, _⟩ => rfl | ⟨1, _⟩ => rfl | ⟨2, _⟩ => rfl | ⟨3, _⟩ => rfl)

/-- Row i of the slab, broadcast over j (second copy). -/
private theorem v17_at (x0 : (⟨S4x8x128x64, .f32⟩ : BufTy).Contents (Elt Ideal)) (b : Fin 4) (u : Fin 8) (i j : Fin 128) (f : Fin 64) :
    val_main_v17 (F := Ideal) x0 (ix5 b u i j f) = slab x0 b u i f := by
  rw [val_main_v17_apply, val_main_v16_apply]
  exact congrArg x0 (funext fun a => by match a with | ⟨0, _⟩ => rfl | ⟨1, _⟩ => rfl | ⟨2, _⟩ => rfl | ⟨3, _⟩ => rfl)

/-- Row j of the slab, broadcast over i. -/
private theorem v19_at (x0 : (⟨S4x8x128x64, .f32⟩ : BufTy).Contents (Elt Ideal)) (b : Fin 4) (u : Fin 8) (i j : Fin 128) (f : Fin 64) :
    val_main_v19 (F := Ideal) x0 (ix5 b u i j f) = slab x0 b u j f := by
  rw [val_main_v19_apply, val_main_v18_apply]
  exact congrArg x0 (funext fun a => by match a with | ⟨0, _⟩ => rfl | ⟨1, _⟩ => rfl | ⟨2, _⟩ => rfl | ⟨3, _⟩ => rfl)

/-- The column mean of the slab at (b, u, 0, f): the sum over the 128 rows divided by 128. -/
private theorem v10_at (x0 : (⟨S4x8x128x64, .f32⟩ : BufTy).Contents (Elt Ideal)) (b : Fin 4) (u : Fin 8) (f : Fin 64) :
    val_main_v10 (F := Ideal) x0 (ix4 b u 0 f) = colMean (slab x0 b u) f := by
  rw [val_main_v10_apply, val_main_v8_apply, val_main_v7_apply, val_main_cst_apply, val_main_v9_apply, val_main_cst_0_apply]
  show Ideal.div (Ideal.ofBits .f32 0x00000000#32 + ∑ k : Fin 128, x0 (idx_main_v7 (idx_main_v8 (ix4 b u 0 f)) k))
      (Ideal.ofBits .f32 0x43000000#32) = colMean (slab x0 b u) f
  rw [Ideal.ofBits_zero_f32, zero_add]
  unfold colMean slab
  refine congrArg (fun t => Ideal.div t (Ideal.ofBits .f32 0x43000000#32)) (Finset.sum_congr rfl fun k _ => ?_)
  exact congrArg x0 (funext fun a => by match a with | ⟨0, _⟩ => rfl | ⟨1, _⟩ => rfl | ⟨2, _⟩ => rfl | ⟨3, _⟩ => rfl)

/-- The column mean broadcast to the full pair grid (first copy). -/
private theorem v22_at (x0 : (⟨S4x8x128x64, .f32⟩ : BufTy).Contents (Elt Ideal)) (b : Fin 4) (u : Fin 8) (i j : Fin 128) (f : Fin 64) :
    val_main_v22 (F := Ideal) x0 (ix5 b u i j f) = colMean (slab x0 b u) f := by
  rw [val_main_v22_apply, val_main_v20_apply]
  have e : idx_main_v20 (idx_main_v22 (ix5 b u i j f)) = ix4 b u 0 f := by
    funext a; match a with | ⟨0, _⟩ => rfl | ⟨1, _⟩ => rfl | ⟨2, _⟩ => rfl | ⟨3, _⟩ => rfl
  rw [e, v10_at]

/-- The column mean broadcast to the full pair grid (second copy). -/
private theorem v26_at (x0 : (⟨S4x8x128x64, .f32⟩ : BufTy).Contents (Elt Ideal)) (b : Fin 4) (u : Fin 8) (i j : Fin 128) (f : Fin 64) :
    val_main_v26 (F := Ideal) x0 (ix5 b u i j f) = colMean (slab x0 b u) f := by
  rw [val_main_v26_apply, val_main_v25_apply]
  have e : idx_main_v25 (idx_main_v26 (ix5 b u i j f)) = ix4 b u 0 f := by
    funext a; match a with | ⟨0, _⟩ => rfl | ⟨1, _⟩ => rfl | ⟨2, _⟩ => rfl | ⟨3, _⟩ => rfl
  rw [e, v10_at]

/-- The row piece on the diagonal only. -/
private theorem v15_at (x0 : (⟨S4x8x128x64, .f32⟩ : BufTy).Contents (Elt Ideal)) (b : Fin 4) (u : Fin 8) (i j : Fin 128) (f : Fin 64) :
    val_main_v15 (F := Ideal) x0 (ix5 b u i j f) = slab x0 b u i f * diag i j := by
  rw [val_main_v15_apply, v13_at, v14_at]
  rfl

/-- The mean piece on the diagonal only. -/
private theorem v24_at (x0 : (⟨S4x8x128x64, .f32⟩ : BufTy).Contents (Elt Ideal)) (b : Fin 4) (u : Fin 8) (i j : Fin 128) (f : Fin 64) :
    val_main_v24 (F := Ideal) x0 (ix5 b u i j f) = colMean (slab x0 b u) f * diag i j := by
  rw [val_main_v24_apply, v22_at, v23_at]
  rfl

/-! ## The concatenation read at column 64 s + f -/

/-- Five 64-wide pieces joined along the last axis, read at column 64 s + f: piece s at column f. -/
private theorem concat5_at {α : Type} (y0 y1 y2 y3 y4 : S4x8x128x128x64.Idx → α)
    (b : Fin 4) (u : Fin 8) (i j : Fin 128) (s : Fin 5) (f : Fin 64) :
    concatenate S4x8x128x128x320 4 [⟨S4x8x128x128x64, y0⟩, ⟨S4x8x128x128x64, y1⟩, ⟨S4x8x128x128x64, y2⟩, ⟨S4x8x128x128x64, y3⟩, ⟨S4x8x128x128x64, y4⟩]
        concatenates_S4x8x128x128x64_S4x8x128x128x64_S4x8x128x128x64_S4x8x128x128x64_S4x8x128x128x64_S4x8x128x128x320_d4 (ix5 b u i j (col s f))
      = (match s with | ⟨0, _⟩ => y0 | ⟨1, _⟩ => y1 | ⟨2, _⟩ => y2 | ⟨3, _⟩ => y3 | ⟨4, _⟩ => y4) (ix5 b u i j f) := by
  have hi : ∀ a : Fin S4x8x128x128x64.rank, a.cast (rfl : S4x8x128x128x64.rank = S4x8x128x128x320.rank) ≠ (4 : Fin S4x8x128x128x320.rank) →
      ((ix5 b u i j f : S4x8x128x128x64.Idx) a).val
        = ((ix5 b u i j (col s f) : S4x8x128x128x320.Idx) (a.cast (rfl : S4x8x128x128x64.rank = S4x8x128x128x320.rank))).val := fun a ha => by
    match a with
    | ⟨0, _⟩ => rfl
    | ⟨1, _⟩ => rfl
    | ⟨2, _⟩ => rfl
    | ⟨3, _⟩ => rfl
    | ⟨4, _⟩ => exact absurd rfl ha
  match s with
  | ⟨0, _⟩ =>
    refine concatenate_apply_piece (t := S4x8x128x128x320) 4
      [⟨S4x8x128x128x64, y0⟩, ⟨S4x8x128x128x64, y1⟩, ⟨S4x8x128x128x64, y2⟩, ⟨S4x8x128x128x64, y3⟩, ⟨S4x8x128x128x64, y4⟩]
      concatenates_S4x8x128x128x64_S4x8x128x128x64_S4x8x128x128x64_S4x8x128x128x64_S4x8x128x128x64_S4x8x128x128x320_d4 (ix5 b u i j (col ⟨0, by omega⟩ f)) 0 (show 0 < 5 by omega) S4x8x128x128x64 y0 rfl rfl 0 ?_ (ix5 b u i j f) hi ?_
    · rfl
    · show 0 + f.val = 64 * 0 + f.val
      omega
  | ⟨1, _⟩ =>
    refine concatenate_apply_piece (t := S4x8x128x128x320) 4
      [⟨S4x8x128x128x64, y0⟩, ⟨S4x8x128x128x64, y1⟩, ⟨S4x8x128x128x64, y2⟩, ⟨S4x8x128x128x64, y3⟩, ⟨S4x8x128x128x64, y4⟩]
      concatenates_S4x8x128x128x64_S4x8x128x128x64_S4x8x128x128x64_S4x8x128x128x64_S4x8x128x128x64_S4x8x128x128x320_d4 (ix5 b u i j (col ⟨1, by omega⟩ f)) 1 (show 1 < 5 by omega) S4x8x128x128x64 y1 rfl rfl 64 ?_ (ix5 b u i j f) hi ?_
    · rfl
    · show 64 + f.val = 64 * 1 + f.val
      omega
  | ⟨2, _⟩ =>
    refine concatenate_apply_piece (t := S4x8x128x128x320) 4
      [⟨S4x8x128x128x64, y0⟩, ⟨S4x8x128x128x64, y1⟩, ⟨S4x8x128x128x64, y2⟩, ⟨S4x8x128x128x64, y3⟩, ⟨S4x8x128x128x64, y4⟩]
      concatenates_S4x8x128x128x64_S4x8x128x128x64_S4x8x128x128x64_S4x8x128x128x64_S4x8x128x128x64_S4x8x128x128x320_d4 (ix5 b u i j (col ⟨2, by omega⟩ f)) 2 (show 2 < 5 by omega) S4x8x128x128x64 y2 rfl rfl 128 ?_ (ix5 b u i j f) hi ?_
    · rfl
    · show 128 + f.val = 64 * 2 + f.val
      omega
  | ⟨3, _⟩ =>
    refine concatenate_apply_piece (t := S4x8x128x128x320) 4
      [⟨S4x8x128x128x64, y0⟩, ⟨S4x8x128x128x64, y1⟩, ⟨S4x8x128x128x64, y2⟩, ⟨S4x8x128x128x64, y3⟩, ⟨S4x8x128x128x64, y4⟩]
      concatenates_S4x8x128x128x64_S4x8x128x128x64_S4x8x128x128x64_S4x8x128x128x64_S4x8x128x128x64_S4x8x128x128x320_d4 (ix5 b u i j (col ⟨3, by omega⟩ f)) 3 (show 3 < 5 by omega) S4x8x128x128x64 y3 rfl rfl 192 ?_ (ix5 b u i j f) hi ?_
    · rfl
    · show 192 + f.val = 64 * 3 + f.val
      omega
  | ⟨4, _⟩ =>
    refine concatenate_apply_piece (t := S4x8x128x128x320) 4
      [⟨S4x8x128x128x64, y0⟩, ⟨S4x8x128x128x64, y1⟩, ⟨S4x8x128x128x64, y2⟩, ⟨S4x8x128x128x64, y3⟩, ⟨S4x8x128x128x64, y4⟩]
      concatenates_S4x8x128x128x64_S4x8x128x128x64_S4x8x128x128x64_S4x8x128x128x64_S4x8x128x128x64_S4x8x128x128x320_d4 (ix5 b u i j (col ⟨4, by omega⟩ f)) 4 (show 4 < 5 by omega) S4x8x128x128x64 y4 rfl rfl 256 ?_ (ix5 b u i j f) hi ?_
    · rfl
    · show 256 + f.val = 64 * 4 + f.val
      omega

/-- The concatenated feature vector at column 64 s + f is piece s of the pair (i, j) at f. -/
private theorem v27_at (x0 : (⟨S4x8x128x64, .f32⟩ : BufTy).Contents (Elt Ideal)) (b : Fin 4) (u : Fin 8) (i j : Fin 128)
    (s : Fin 5) (f : Fin 64) :
    val_main_v27 (F := Ideal) x0 (ix5 b u i j (col s f)) = feat (slab x0 b u) i j s f := by
  unfold val_main_v27
  rw [concat5_at]
  match s with
  | ⟨0, _⟩ => exact v15_at x0 b u i j f
  | ⟨1, _⟩ => exact v17_at x0 b u i j f
  | ⟨2, _⟩ => exact v19_at x0 b u i j f
  | ⟨3, _⟩ => exact v24_at x0 b u i j f
  | ⟨4, _⟩ => exact v26_at x0 b u i j f

/-! ## The 320 columns enumerated block by block -/

/-- A column of a 320-wide row is a block and a column within it. -/
private def blk : Fin 5 × Fin 64 ≃ Fin 320 where
  toFun p := col p.1 p.2
  invFun k := (⟨k.val / 64, by have := k.isLt; omega⟩, ⟨k.val % 64, Nat.mod_lt _ (by decide)⟩)
  left_inv p := by
    rcases p with ⟨s, f⟩
    have hs := s.isLt
    have hf := f.isLt
    refine Prod.ext (Fin.ext ?_) (Fin.ext ?_)
    · show (64 * s.val + f.val) / 64 = s.val
      omega
    · show (64 * s.val + f.val) % 64 = f.val
      omega
  right_inv k := by
    refine Fin.ext ?_
    show 64 * (k.val / 64) + k.val % 64 = k.val
    omega

/-- A sum over the 320 columns is the sum over the five blocks of the sums over their 64 columns. -/
private theorem sum_blocks {M : Type} [AddCommMonoid M] (g : Fin 320 → M) :
    ∑ k : Fin 320, g k = ∑ s : Fin 5, ∑ f : Fin 64, g (col s f) := by
  rw [← Fintype.sum_prod_type' (fun s f => g (col s f))]
  exact (Fintype.sum_equiv blk _ _ (fun p => rfl)).symm

/-- The reference's pre-activation at (b, u, i, j, d). -/
theorem v31_apply (x0 : (⟨S4x8x128x64, .f32⟩ : BufTy).Contents (Elt Ideal)) (x1 : (⟨S64x320, .f32⟩ : BufTy).Contents (Elt Ideal))
    (x2 : (⟨S64, .f32⟩ : BufTy).Contents (Elt Ideal)) (b : Fin 4) (u : Fin 8) (i j : Fin 128) (d : Fin 64) :
    val_main_v31 (F := Ideal) x0 x1 x2 (ix5 b u i j d) = preConcat (slab x0 b u) (mat320 x1) (vec64 x2) i j d := by
  rw [val_main_v31_apply, val_main_v28_apply, val_main_v30_apply, val_main_v29_apply]
  have e2 : idx_main_v29 (idx_main_v30 (ix5 b u i j d)) = ix1 d := by
    funext a; match a with | ⟨0, _⟩ => rfl
  have el : ∀ k : Fin 320, lidx_main_v28 (ix5 b u i j d) k = ix5 b u i j k := fun k => by
    funext a; match a with | ⟨0, _⟩ => rfl | ⟨1, _⟩ => rfl | ⟨2, _⟩ => rfl | ⟨3, _⟩ => rfl | ⟨4, _⟩ => rfl
  have er : ∀ k : Fin 320, ridx_main_v28 (ix5 b u i j d) k = ix2 d k := fun k => by
    funext a; match a with | ⟨0, _⟩ => rfl | ⟨1, _⟩ => rfl
  rw [e2]
  unfold preConcat
  show (∑ k : Fin 320, val_main_v27 (F := Ideal) x0 (lidx_main_v28 (ix5 b u i j d) k) * x1 (ridx_main_v28 (ix5 b u i j d) k))
      + vec64 x2 d = _
  refine congrArg (· + vec64 x2 d) ?_
  rw [sum_blocks]
  refine Finset.sum_congr rfl fun s _ => Finset.sum_congr rfl fun f _ => ?_
  rw [el, er, v27_at]
  rfl

end Cert.Pair.Ref

end
-- ==== Proof.RefTail.lean ====
/- The reference's second half — normalisation, clamp, diagonal bias, second affine map — read at (b, u, i, j, o), the pre-activation and the mask kept as they are. -/
import proofs.«167405_j63041529970916_1_alg».proof.Proof.Gen.ReferenceIdeal.Read
import proofs.«167405_j63041529970916_1_alg».proof.Proof.PairSpec
import Idealize.ShloMosaic.Lib.Pipeline.Value
import Idealize.ShloMosaic.Lib.ValueIdx
import Idealize.ShloMosaic.Lib.ValueLayout
import Idealize.ShloMosaic.PureOps.Ideal.Laws

noncomputable section

namespace Cert.Pair.Ref

open Idealize.ShloMosaic Idealize.ShloMosaic.ValueIdx Cert.ReferenceIdeal Cert.ReferenceIdeal.Gen Cert.ReferenceIdeal.Read Cert.Pair

/-! ## The composed index maps at literal coordinates -/

section Index
variable (b : Fin 4) (u : Fin 8) (i j : Fin 128)

private theorem i32 (k : Fin 64) : idx_main_v32 (ix4 b u i j) k = ix5 b u i j k := funext fun a => Fin.ext (by match a with | ⟨0, _⟩ => rfl | ⟨1, _⟩ => rfl | ⟨2, _⟩ => rfl | ⟨3, _⟩ => rfl | ⟨4, _⟩ => rfl)
private theorem i39 (k : Fin 64) : idx_main_v39 (ix4 b u i j) k = ix5 b u i j k := funext fun a => Fin.ext (by match a with | ⟨0, _⟩ => rfl | ⟨1, _⟩ => rfl | ⟨2, _⟩ => rfl | ⟨3, _⟩ => rfl | ⟨4, _⟩ => rfl)
private theorem i33 : idx_main_v33 (ix5 b u i j (0 : Fin 1)) = ix4 b u i j := funext fun a => Fin.ext (by match a with | ⟨0, _⟩ => rfl | ⟨1, _⟩ => rfl | ⟨2, _⟩ => rfl | ⟨3, _⟩ => rfl)
private theorem i40 : idx_main_v40 (ix5 b u i j (0 : Fin 1)) = ix4 b u i j := funext fun a => Fin.ext (by match a with | ⟨0, _⟩ => rfl | ⟨1, _⟩ => rfl | ⟨2, _⟩ => rfl | ⟨3, _⟩ => rfl)
private theorem i36 (d : Fin 64) : idx_main_v36 (ix5 b u i j d) = ix5 b u i j (0 : Fin 1) := funext fun a => Fin.ext (by match a with | ⟨0, _⟩ => rfl | ⟨1, _⟩ => rfl | ⟨2, _⟩ => rfl | ⟨3, _⟩ => rfl | ⟨4, _⟩ => rfl)
private theorem i43 (d : Fin 64) : idx_main_v43 (ix5 b u i j d) = ix5 b u i j (0 : Fin 1) := funext fun a => Fin.ext (by match a with | ⟨0, _⟩ => rfl | ⟨1, _⟩ => rfl | ⟨2, _⟩ => rfl | ⟨3, _⟩ => rfl | ⟨4, _⟩ => rfl)
private theorem i48 (d : Fin 64) : idx_main_v48 (ix5 b u i j d) = ix5 b u i j (0 : Fin 1) := funext fun a => Fin.ext (by match a with | ⟨0, _⟩ => rfl | ⟨1, _⟩ => rfl | ⟨2, _⟩ => rfl | ⟨3, _⟩ => rfl | ⟨4, _⟩ => rfl)
private theorem i51 (d : Fin 64) : idx_main_v50 (idx_main_v51 (ix5 b u i j d)) = ix1 d := funext fun a => Fin.ext (by match a with | ⟨0, _⟩ => rfl)
private theorem i54 (d : Fin 64) : idx_main_v53 (idx_main_v54 (ix5 b u i j d)) = ix1 d := funext fun a => Fin.ext (by match a with | ⟨0, _⟩ => rfl)
private theorem i66 (d : Fin 64) : idx_main_v65 (idx_main_v66 (ix5 b u i j d)) = ix1 d := funext fun a => Fin.ext (by match a with | ⟨0, _⟩ => rfl)
private theorem i62 (d : Fin 64) : idx_main_v61 (idx_main_v62 (ix5 b u i j d)) = ix3 i j d := funext fun a => Fin.ext (by match a with | ⟨0, _⟩ => rfl | ⟨1, _⟩ => rfl | ⟨2, _⟩ => rfl)
private theorem i58 (d : Fin 64) : idx_main_v57 (idx_main_v58 (ix3 i j d)) = ix1 d := funext fun a => Fin.ext (by match a with | ⟨0, _⟩ => rfl)
private theorem i59 (d : Fin 64) : idx_main_v59 (ix3 i j d) = ix3 i j (0 : Fin 1) := funext fun a => Fin.ext (by match a with | ⟨0, _⟩ => rfl | ⟨1, _⟩ => rfl | ⟨2, _⟩ => rfl)
private theorem il64 (o k : Fin 64) : lidx_main_v64 (ix5 b u i j o) k = ix5 b u i j k := funext fun a => Fin.ext (by match a with | ⟨0, _⟩ => rfl | ⟨1, _⟩ => rfl | ⟨2, _⟩ => rfl | ⟨3, _⟩ => rfl | ⟨4, _⟩ => rfl)
private theorem ir64 (o k : Fin 64) : ridx_main_v64 (ix5 b u i j o) k = ix2 o k := funext fun a => Fin.ext (by match a with | ⟨0, _⟩ => rfl | ⟨1, _⟩ => rfl)

end Index

/-! ## The values, one stage at a time -/

section Value
variable (x0 : (⟨S4x8x128x64, .f32⟩ : BufTy).Contents (Elt Ideal)) (x1 : (⟨S64x320, .f32⟩ : BufTy).Contents (Elt Ideal))
    (x2 x3 x4 x5 : (⟨S64, .f32⟩ : BufTy).Contents (Elt Ideal)) (x6 : (⟨S64x64, .f32⟩ : BufTy).Contents (Elt Ideal))
    (x7 : (⟨S64, .f32⟩ : BufTy).Contents (Elt Ideal)) (b : Fin 4) (u : Fin 8) (i j : Fin 128)

/-- The 64 pre-activations of the pair (i, j) of slab (b, u). -/
private abbrev H : Fin 64 → EReal := fun d => val_main_v31 (F := Ideal) x0 x1 x2 (ix5 b u i j d)

/-- The sum of the 64 pre-activations. -/
private theorem sum32 :
    val_main_v32 (F := Ideal) x0 x1 x2 (ix4 b u i j) = ∑ k : Fin 64, H x0 x1 x2 b u i j k := by
  rw [val_main_v32_apply, val_main_cst_1_apply, Ideal.ofBits_def, Ideal.ofBits_zero_f32, zero_add]
  simp only [i32]

/-- The mean of the 64 pre-activations. -/
private theorem mu_apply :
    val_main_v35 (F := Ideal) x0 x1 x2 (ix5 b u i j (0 : Fin 1)) = mean64 (H x0 x1 x2 b u i j) := by
  rw [val_main_v35_apply, val_main_v33_apply, val_main_v34_apply, val_main_cst_2_apply, i33, sum32]
  rfl

/-- A centred pre-activation. -/
private theorem cen37 (d : Fin 64) :
    val_main_v37 (F := Ideal) x0 x1 x2 (ix5 b u i j d) = H x0 x1 x2 b u i j d - mean64 (H x0 x1 x2 b u i j) := by
  rw [val_main_v37_apply, val_main_v36_apply, i36, mu_apply]
  rfl

/-- The sum of the squared centred pre-activations. -/
private theorem sum39 :
    val_main_v39 (F := Ideal) x0 x1 x2 (ix4 b u i j)
      = ∑ k : Fin 64, (H x0 x1 x2 b u i j k - mean64 (H x0 x1 x2 b u i j)) * (H x0 x1 x2 b u i j k - mean64 (H x0 x1 x2 b u i j)) := by
  rw [val_main_v39_apply, val_main_cst_3_apply, Ideal.ofBits_def, Ideal.ofBits_zero_f32, zero_add]
  refine Finset.sum_congr rfl fun k _ => ?_
  rw [i39, val_main_v38_apply, cen37]
  rfl

/-- The variance of the 64 pre-activations. -/
private theorem var_apply :
    val_main_v42 (F := Ideal) x0 x1 x2 (ix5 b u i j (0 : Fin 1))
      = mean64 (fun d' => (H x0 x1 x2 b u i j d' - mean64 (H x0 x1 x2 b u i j)) * (H x0 x1 x2 b u i j d' - mean64 (H x0 x1 x2 b u i j))) := by
  rw [val_main_v42_apply, val_main_v40_apply, val_main_v41_apply, val_main_cst_4_apply, i40, sum39]
  rfl

/-- The normalised pre-activation. -/
private theorem normed_apply (d : Fin 64) :
    val_main_v49 (F := Ideal) x0 x1 x2 (ix5 b u i j d) = normed (H x0 x1 x2 b u i j) d := by
  rw [val_main_v49_apply, val_main_v44_apply, val_main_v43_apply, i43, mu_apply, val_main_v48_apply, i48, val_main_v47_apply,
    val_main_v46_apply, var_apply, val_main_v45_apply, val_main_cst_5_apply]
  rfl

/-- The scale, the shift and the second bias read at a feature. -/
private theorem g_apply (d : Fin 64) : val_main_v51 (F := Ideal) x3 (ix5 b u i j d) = vec64 x3 d := by
  rw [val_main_v51_apply, val_main_v50_apply, i51]
  rfl
private theorem beta_apply (d : Fin 64) : val_main_v54 (F := Ideal) x4 (ix5 b u i j d) = vec64 x4 d := by
  rw [val_main_v54_apply, val_main_v53_apply, i54]
  rfl
private theorem b2_apply (d : Fin 64) : val_main_v66 (F := Ideal) x7 (ix5 b u i j d) = vec64 x7 d := by
  rw [val_main_v66_apply, val_main_v65_apply, i66]
  rfl

/-- The diagonal bias: the learned bias times the mask of the pair. -/
private theorem bias_apply (d : Fin 64) :
    val_main_v62 (F := Ideal) x5 (ix5 b u i j d) = vec64 x5 d * val_main_v6 (F := Ideal) (ix3 i j (0 : Fin 1)) := by
  rw [val_main_v62_apply, val_main_v61_apply, i62, val_main_v60_apply, val_main_v58_apply, val_main_v57_apply, i58,
    val_main_v59_apply, i59]
  rfl

/-- The activated feature. -/
private theorem y_apply (d : Fin 64) :
    val_main_v63 (F := Ideal) x0 x1 x2 x3 x4 x5 (ix5 b u i j d)
      = act (H x0 x1 x2 b u i j) (val_main_v6 (F := Ideal) (ix3 i j (0 : Fin 1))) (vec64 x3) (vec64 x4) (vec64 x5) d := by
  rw [val_main_v63_apply, val_main_v56_apply, val_main_v55_apply, val_main_v52_apply, normed_apply, g_apply, beta_apply,
    bias_apply, val_main_call0_v0_apply, val_main_call0_cst_apply, Ideal.ofBits_def, Ideal.ofBits_zero_f32]
  rfl

end Value

theorem v67_apply (x0 : (⟨S4x8x128x64, .f32⟩ : BufTy).Contents (Elt Ideal)) (x1 : (⟨S64x320, .f32⟩ : BufTy).Contents (Elt Ideal))
    (x2 x3 x4 x5 : (⟨S64, .f32⟩ : BufTy).Contents (Elt Ideal)) (x6 : (⟨S64x64, .f32⟩ : BufTy).Contents (Elt Ideal))
    (x7 : (⟨S64, .f32⟩ : BufTy).Contents (Elt Ideal)) (b : Fin 4) (u : Fin 8) (i j : Fin 128) (o : Fin 64) :
    val_main_v67 (F := Ideal) x0 x1 x2 x3 x4 x5 x6 x7 (ix5 b u i j o)
      = tail (fun d => val_main_v31 (F := Ideal) x0 x1 x2 (ix5 b u i j d)) (val_main_v6 (F := Ideal) (ix3 i j 0))
          (vec64 x3) (vec64 x4) (vec64 x5) (mat64 x6) (vec64 x7) o := by
  rw [val_main_v67_apply, val_main_v64_apply, b2_apply]
  refine congrArg (· + vec64 x7 o) (Finset.sum_congr rfl fun k _ => ?_)
  rw [il64, ir64, y_apply]
  rfl

end Cert.Pair.Ref

end
-- ==== Proof.RefValue.lean ====
/- The reference's result array is one function of the arguments: at (b, u, i, j, o) the tail of the pre-activations
   of the pair (i, j) of slab (b, u), the first affine map contracted over the concatenated features. -/
import proofs.«167405_j63041529970916_1_alg».proof.Proof.RefPre
import proofs.«167405_j63041529970916_1_alg».proof.Proof.RefTail

noncomputable section

namespace Cert.Pair.Ref

open Idealize.ShloMosaic Idealize.ShloMosaic.TcCoe Idealize.ShloMosaic.ValueIdx Idealize.SL.Sem
open Cert.ReferenceIdeal Cert.ReferenceIdeal.Gen Cert.ReferenceIdeal.Read Cert.Pair

/-- The last stage of the reference, as a function of the eight arguments, is the specified array. -/
theorem result_eq (x0 : (⟨S4x8x128x64, .f32⟩ : BufTy).Contents (Elt Ideal)) (x1 : (⟨S64x320, .f32⟩ : BufTy).Contents (Elt Ideal))
    (x2 x3 x4 x5 : (⟨S64, .f32⟩ : BufTy).Contents (Elt Ideal)) (x6 : (⟨S64x64, .f32⟩ : BufTy).Contents (Elt Ideal))
    (x7 : (⟨S64, .f32⟩ : BufTy).Contents (Elt Ideal)) :
    val_main_v67 (F := Ideal) x0 x1 x2 x3 x4 x5 x6 x7 = outArr preConcat x0 x1 x2 x3 x4 x5 x6 x7 := by
  funext y
  obtain ⟨b, u, i, j, o, rfl⟩ : ∃ (b : Fin 4) (u : Fin 8) (i j : Fin 128) (o : Fin 64), y = ix5 b u i j o :=
    ⟨y 0, y 1, y 2, y 3, y 4, eq_ix5 y⟩
  refine (v67_apply x0 x1 x2 x3 x4 x5 x6 x7 b u i j o).trans ?_
  rw [outArr_ix5, v6_apply i j]
  unfold outWith
  refine congrArg (fun h => tail h (diag i j) (vec64 x3) (vec64 x4) (vec64 x5) (mat64 x6) (vec64 x7) o) ?_
  funext d
  exact v31_apply x0 x1 x2 b u i j d

/-- The reference's run: every weakly fair execution ends with the result at the specified array of the
    arguments as launched, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = outArr preConcat (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c).1.trans ((val_main_v67_eq (F := Ideal) m c).trans (result_eq _ _ _ _ _ _ _ _)), (h c).2⟩)
    (Cert.ReferenceIdeal.Value.run (F := Ideal) m ρ)

end Cert.Pair.Ref

end
-- ==== Proof.PairAlgebra.lean ====
/- The two ways of computing the first affine map agree when the slab, W1 and b1 hold real numbers. -/
import proofs.«167405_j63041529970916_1_alg».proof.Proof.PairSpec
import Mathlib.Data.EReal.Basic
import Mathlib.Algebra.BigOperators.Fin
import Mathlib.Tactic.Ring

noncomputable section

namespace Cert.Pair

open Idealize.ShloMosaic

/-- The float pattern 0x43000000 (sign 0, exponent 134, fraction 0) denotes the real 128 = 2^7. -/
private theorem ofBits_128 : Ideal.ofBits .f32 0x43000000#32 = ((128 : ℝ) : EReal) := by
  simp [Ideal.ofBits, Ideal.ieee, -EReal.coe_mul]; norm_num

/-- A finite sum of coerced reals is the coercion of the real sum. -/
private theorem coe_sum {ι : Type} (s : Finset ι) (g : ι → ℝ) :
    (∑ a ∈ s, ((g a : ℝ) : EReal)) = ((∑ a ∈ s, g a : ℝ) : EReal) := by
  classical
  induction s using Finset.induction_on with
  | empty => simp
  | insert a s ha ih => rw [Finset.sum_insert ha, Finset.sum_insert ha, ih, EReal.coe_add]

/-- A factor common to every first factor of a contraction comes out of the real sum. -/
private theorem sum_mul_mul (e : ℝ) (v w : Fin 64 → ℝ) :
    (∑ f, (v f * e) * w f) = e * ∑ f, v f * w f := by
  rw [Finset.mul_sum]
  exact Finset.sum_congr rfl (fun f _ => by ring)

/-- Over real entries the diagonal indicator may be moved out of a contraction and the two diagonal-only pieces
    gathered under it: distributivity, which on the extended reals needs every term finite. -/
theorem preSplit_eq_preConcat (X : Fin 128 → Fin 64 → EReal) (W : Fin 64 → Fin 320 → EReal) (b1 : Fin 64 → EReal)
    (hX : ∀ i f, ∃ r : ℝ, X i f = (r : EReal)) (hW : ∀ d k, ∃ r : ℝ, W d k = (r : EReal))
    (hb : ∀ d, ∃ r : ℝ, b1 d = (r : EReal)) (i j : Fin 128) (d : Fin 64) :
    preSplit X W b1 i j d = preConcat X W b1 i j d := by
  choose Xr hXr using hX
  choose Wr hWr using hW
  choose br hbr using hb
  -- the diagonal indicator is a real number e (one or zero)
  obtain ⟨e, he⟩ : ∃ e : ℝ, diag i j = (e : EReal) := by
    by_cases h : i = j
    · exact ⟨1, by simp [diag, h]⟩
    · exact ⟨0, by simp [diag, h]⟩
  -- the column mean is a real number: the real sum times 1/128
  obtain ⟨M, hM⟩ : ∃ M : Fin 64 → ℝ, ∀ f, colMean X f = ((M f : ℝ) : EReal) := by
    refine ⟨fun f => (∑ a, Xr a f) * (1 / 128), fun f => ?_⟩
    have hs : (∑ a, X a f) = ((∑ a, Xr a f : ℝ) : EReal) := by
      rw [← coe_sum]; exact Finset.sum_congr rfl (fun a _ => hXr a f)
    rw [colMean, hs, ofBits_128, Ideal.div_coe (by norm_num : (128 : ℝ) ≠ 0), ← EReal.coe_mul]
  -- a contraction of a real vector with a block of row d of W is a coerced real sum
  have hproj : ∀ (s : Fin 5) (v : Fin 64 → EReal) (vr : Fin 64 → ℝ), (∀ f, v f = (vr f : EReal)) →
      (∑ f, v f * W d (col s f)) = ((∑ f, vr f * Wr d (col s f) : ℝ) : EReal) := by
    intro s v vr hv
    rw [← coe_sum]
    refine Finset.sum_congr rfl (fun f _ => ?_)
    rw [hv f, hWr, EReal.coe_mul]
  -- the five pieces of the feature vector, as reals
  have h0 : ∀ f, feat X i j 0 f = ((Xr i f * e : ℝ) : EReal) := by
    intro f; show X i f * diag i j = _; rw [hXr, he, ← EReal.coe_mul]
  have h1 : ∀ f, feat X i j 1 f = ((Xr i f : ℝ) : EReal) := fun f => hXr i f
  have h2 : ∀ f, feat X i j 2 f = ((Xr j f : ℝ) : EReal) := fun f => hXr j f
  have h3 : ∀ f, feat X i j 3 f = ((M f * e : ℝ) : EReal) := by
    intro f; show colMean X f * diag i j = _; rw [hM, he, ← EReal.coe_mul]
  have h4 : ∀ f, feat X i j 4 f = ((M f : ℝ) : EReal) := fun f => hM f
  unfold preSplit preConcat proj
  rw [Fin.sum_univ_five]
  rw [hproj 1 (X i) (Xr i) (hXr i), hproj 2 (X j) (Xr j) (hXr j), hproj 4 (colMean X) M hM,
    hproj 0 (X i) (Xr i) (hXr i), hproj 3 (colMean X) M hM,
    hproj 0 (feat X i j 0) _ h0, hproj 1 (feat X i j 1) _ h1, hproj 2 (feat X i j 2) _ h2,
    hproj 3 (feat X i j 3) _ h3, hproj 4 (feat X i j 4) _ h4, hbr d, he]
  simp only [← EReal.coe_add, ← EReal.coe_mul]
  congr 1
  rw [sum_mul_mul e (Xr i), sum_mul_mul e M]
  ring

end Cert.Pair

end
-- ==== Proof.InputsReal.lean ====
/- Under the precondition every entry of the input, of W1 and of b1 is a real number. -/
import proofs.«167405_j63041529970916_1_alg».proof.Pre_finite_inputs
import Idealize.ShloMosaic.Lib.ReduceAll
import Idealize.ShloMosaic.Lib.ValueIdx
import Idealize.ShloMosaic.PureOps.Ideal.Laws

noncomputable section

namespace Cert.Pair

open Idealize.ShloMosaic Cert.Pre_finite_inputs

/-- The scalar shape has one index. -/
private instance subsingleton_scalar_idx : Subsingleton S_.Idx := ⟨fun a b => funext fun d => d.elim0⟩

/-- The pattern 0x7F800000 (exponent all ones, fraction zero, sign clear) denotes +inf. -/
private theorem ofBits_inf_f32 : Ideal.ofBits .f32 0x7F800000#32 = (⊤ : EReal) := by
  simp [Ideal.ofBits, Ideal.ieee]

/-- An extended real whose absolute value max x (-x) is strictly below +inf is a real number. -/
private theorem real_of_abs_lt_inf (x : EReal)
    (h : Ideal.cmp .olt (max x (-x)) (Ideal.ofBits .f32 0x7F800000#32) = 1#1) : ∃ r : ℝ, x = (r : EReal) := by
  rw [ofBits_inf_f32] at h
  have hlt : max x (-x) < ⊤ := by
    by_contra hn
    simp [Ideal.cmp, hn] at h
  induction x using EReal.rec with
  | bot => simp at hlt
  | top => simp at hlt
  | coe r => exact ⟨r, rfl⟩

/-- One conjunct of the precondition: "all entries of |x| are below +inf" true gives that every entry of x is real. -/
private theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ y, ∃ r : ℝ, x y = (r : EReal) := by
  intro y
  have hy := Host.reduce_andi_all _ _ hr hu ValueIdx.ix0 e y
  exact real_of_abs_lt_inf (x y) hy

/-- "Every entry has absolute value below +inf", all eight conjuncts true, gives in particular that the three arrays
    the first affine map reads hold no infinity. -/
theorem real_of_finite [Cert.Pre_finite_inputs.Facts] (x0 : FVec Ideal S4x8x128x64 .f32) (x1 : FVec Ideal S64x320 .f32)
    (x2 x3 x4 x5 : FVec Ideal S64 .f32) (x6 : FVec Ideal S64x64 .f32) (x7 : FVec Ideal S64 .f32)
    (h : Cert.Pre_finite_inputs.fn (F := Ideal) x0 x1 x2 x3 x4 x5 x6 x7 = fun _ => 1#1) :
    (∀ y, ∃ r : ℝ, x0 y = (r : EReal)) ∧ (∀ y, ∃ r : ℝ, x1 y = (r : EReal)) ∧ (∀ y, ∃ r : ℝ, x2 y = (r : EReal)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨c0, c1⟩, c2⟩, -⟩, -⟩, -⟩, -⟩, -⟩ := e
  exact ⟨real_of_all x0 _ _ _ c0, real_of_all x1 _ _ _ c1, real_of_all x2 _ _ _ c2⟩

end Cert.Pair

end
-- ==== Proof.lean ====
/-
  The kernel and its reference compute one function.

  For each of the 4 x 8 slabs X (128 rows, 64 features) of the input and each ordered pair (i, j) of rows, a 64-vector
  of pre-activations is formed from X i, X j, the column mean of X, and — on the diagonal i = j only — X i and the
  column mean once more, through an affine map W1 (64 x 320), b1; it is layer-normalised, scaled and shifted,
  clamped at zero, given a learned bias on the diagonal, and sent through a second affine map W2, b2.

  The reference concatenates the five 64-wide pieces into a 320-wide vector and contracts it with W1.  The kernel
  contracts each piece with its own 64 columns of W1 and adds, with the two diagonal-only pieces gathered under the
  0/1 indicator.  Moving the indicator across a sum and distributing it over a sum are laws of the reals that fail
  at infinities on the extended reals; the precondition (every input entry finite) supplies real entries of the
  input, of W1 and of b1, and under it the two pre-activations agree.  Everything after the first affine map is
  the same expression on both sides, so nothing more is needed of it than reading it at an index.

  The kernel's side: one grid point's block at (i, j, o) (the two halves of the body read at an index), the 32
  blocks tiling the result array, hence the array after the run as one function of the arguments.  The reference's
  side: its run's last stage read at (b, u, i, j, o).
-/
import proofs.«167405_j63041529970916_1_alg».proof.Defs
import proofs.«167405_j63041529970916_1_alg».proof.Proof.Gen.Kernel
import proofs.«167405_j63041529970916_1_alg».proof.Proof.Gen.Kernel.Skeleton
import proofs.«167405_j63041529970916_1_alg».proof.Proof.Gen.Kernel.Launch
import proofs.«167405_j63041529970916_1_alg».proof.Proof.Gen.Kernel.Points
import proofs.«167405_j63041529970916_1_alg».proof.Proof.Gen.Kernel.Frame
import proofs.«167405_j63041529970916_1_alg».proof.Proof.Gen.KernelIdeal
import proofs.«167405_j63041529970916_1_alg».proof.Proof.Gen.KernelIdeal.Skeleton
import proofs.«167405_j63041529970916_1_alg».proof.Proof.Gen.KernelIdeal.Launch
import proofs.«167405_j63041529970916_1_alg».proof.Proof.Gen.KernelIdeal.Points
import proofs.«167405_j63041529970916_1_alg».proof.Proof.Gen.KernelIdeal.Frame
import proofs.«167405_j63041529970916_1_alg».proof.Proof.Gen.ReferenceIdeal
import proofs.«167405_j63041529970916_1_alg».proof.Proof.Gen.Pre_finite_inputs
import proofs.«167405_j63041529970916_1_alg».proof.Proof.Gen.KernelIdeal.Value
import proofs.«167405_j63041529970916_1_alg».proof.Proof.Gen.ReferenceIdeal.Run
import proofs.«167405_j63041529970916_1_alg».proof.Proof.Gen.ReferenceIdeal.Read
import proofs.«167405_j63041529970916_1_alg».proof.Proof.KerArray
import proofs.«167405_j63041529970916_1_alg».proof.Proof.RefValue
import proofs.«167405_j63041529970916_1_alg».proof.Proof.PairAlgebra
import proofs.«167405_j63041529970916_1_alg».proof.Proof.InputsReal
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments, all finite, both programs end with the same result array:
    the kernel's is the specified array with the split first affine map, the reference's the same with the
    concatenated one, and over real entries the two first affine maps are equal at every pair and feature. -/
theorem algebraic : Cert.algebraic_KernelIdeal_ReferenceIdeal := by
  intro m ρ m' ρ' hpre hagree
  refine ⟨fun c => Cert.Pair.Ker.G m c, Cert.Pair.Ker.run m ρ, ?_⟩
  refine (θ_run Cert.ReferenceIdeal.defs _ _).mono (fun _ h c => ⟨(h c).1.trans ?_, (h c).2⟩)
    (Cert.Pair.Ref.run m' ρ')
  obtain ⟨a0, a1, a2, a3, a4, a5, a6, a7⟩ := hagree c
  rw [a0, a1, a2, a3, a4, a5, a6, a7]
  obtain ⟨r0, r1, r2⟩ := Cert.Pair.real_of_finite _ _ _ _ _ _ _ _ (hpre c)
  unfold Cert.Pair.Ker.G
  funext y
  unfold Cert.Pair.outArr Cert.Pair.outWith
  refine congrArg (fun h => Cert.Pair.tail h _ _ _ _ _ _ _) (funext fun d => ?_)
  exact (Cert.Pair.preSplit_eq_preConcat _ _ _ (fun i f => r0 _) (fun d k => r1 _) (fun d => r2 _) _ _ d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
